-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x2 .f32) (main_arg5 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x2, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x2, .f32⟩
  | .hbm, ⟨75, _⟩ => ⟨S850000x1, .f32⟩
  | .hbm, ⟨76, _⟩ => ⟨S850000x2, .f32⟩
  | .hbm, ⟨77, _⟩ => ⟨S850000x2, .f32⟩
  | .hbm, ⟨78, _⟩ => ⟨S_, .f32⟩
  | .hbm, ⟨79, _⟩ => ⟨S50000x2, .f32⟩
  | .hbm, ⟨80, _⟩ => ⟨S850000x1, .i32⟩
  | .hbm, ⟨81, _⟩ => ⟨S50000x2, .f32⟩
  | .hbm, ⟨82, _⟩ => ⟨S1x2, .f32⟩
  | .hbm, ⟨83, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x2_S2000x2_1_0_0_1_n_n_wf : DotDims.WF S2000x128 S128x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S50000x2.size a
  hwx2_2 : ∀ i : grid2.Coords, EltTy.bits .f32 = 32 ∨ (Rect.block (s := S50000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S50000x2.size a
  hwx3_0 : ∀ i : grid3.Coords, EltTy.bits .f32 = 32 ∨ (Rect.block (s := S50000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S50000x2.size a
  hwx3_2 : ∀ i : grid3.Coords, EltTy.bits .f32 = 32 ∨ (Rect.block (s := S50000x2) S2000x2.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x2 : Shape := ⟨2, ![50000, 2]⟩
abbrev S850000x2 : Shape := ⟨2, ![850000, 2]⟩
abbrev S1x2 : Shape := ⟨2, ![1, 2]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x2, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x2, .f32⟩
  | .hbm, ⟨79, _⟩ => ⟨S850000x1, .f32⟩
  | .hbm, ⟨80, _⟩ => ⟨S850000x2, .f32⟩
  | .hbm, ⟨81, _⟩ => ⟨S850000x2, .f32⟩
  | .hbm, ⟨82, _⟩ => ⟨S_, .f32⟩
  | .hbm, ⟨83, _⟩ => ⟨S50000x2, .f32⟩
  | .hbm, ⟨84, _⟩ => ⟨S850000x1, .i32⟩
  | .hbm, ⟨85, _⟩ => ⟨S50000x2, .f32⟩
  | .hbm, ⟨86, _⟩ => ⟨S1x2, .f32⟩
  | .hbm, ⟨87, _⟩ => ⟨S50000x2, .f32⟩
  | .hbm, ⟨88, _⟩ => ⟨S50000x2, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x2, .f32⟩
  | .hbm, ⟨96, _⟩ => ⟨S50000x2, .f32⟩
  | .hbm, ⟨97, _⟩ => ⟨S50000x2, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x2, .f32⟩
  | .hbm, ⟨103, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.Spec0.lean ====
/-
  The four dense pieces of the two-layer graph network, each as one function of whole arrays at the extended reals.

  * dot1 x w and dot2 h w: the plain products [50000,128]·[128,128] and [50000,128]·[128,2], entry (p, q) the sum over
    k of x(p,k)·w(k,q).
  * biasReluRow a row: entry (p, q) is max(a(p,q) + row(0,q), 0): a bias row laid over every row, then the clamp at 0.
  * lsmK a row: with z(p,q) = a(p,q) + row(0,q) and μ(p) = max(z(p,0), z(p,1)), entry (p, q) is
    z(p,q) - (μ(p) + log(exp(z(p,0) - μ(p)) + exp(z(p,1) - μ(p)))): the logarithm of the softmax of row p, the
    normaliser added to the row maximum BEFORE it is taken off z.
-/
import proofs.«126349_j90134183674022_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Gen

/-- The first layer's product x·W, [50000,128]·[128,128]. -/
def dot1 (x : FVec Ideal S50000x128 .f32) (w : FVec Ideal S128x128 .f32) : FVec Ideal S50000x128 .f32 :=
  Host.dotGeneral dot_S50000x128_S128x128_S50000x128_1_0_0_1_n_n none x w

/-- The second layer's product h·W, [50000,128]·[128,2]. -/
def dot2 (h : FVec Ideal S50000x128 .f32) (w : FVec Ideal S128x2 .f32) : FVec Ideal S50000x2 .f32 :=
  Host.dotGeneral dot_S50000x128_S128x2_S50000x2_1_0_0_1_n_n none h w

/-- max(a + row, 0), the [1,128] row laid over all 50000 rows. -/
def biasReluRow (a : FVec Ideal S50000x128 .f32) (row : FVec Ideal S1x128 .f32) : FVec Ideal S50000x128 .f32 :=
  maximumf (addf a (broadcastInDim S50000x128 ![0, 1] bcast_S1x128_S50000x128_0_1 row))
    (broadcastInDim S50000x128 ![] bcast_S_S50000x128 (constant S_ .f32 0x00000000#32))

/-- Row p of a + row, at column q. -/
def zAt (a : FVec Ideal S50000x2 .f32) (row : FVec Ideal S1x2 .f32) (p : Fin 50000) (q : Fin 2) : EReal :=
  a (ix2 p q) + row (ix2 (0 : Fin 1) q)

/-- The log-softmax of row p at column q, the normaliser joined to the row maximum first. -/
def lsmKAt (a : FVec Ideal S50000x2 .f32) (row : FVec Ideal S1x2 .f32) (p : Fin 50000) (q : Fin 2) : EReal :=
  zAt a row p q - (max (zAt a row p 0) (zAt a row p 1)
    + Ideal.log (Ideal.exp (zAt a row p 0 - max (zAt a row p 0) (zAt a row p 1))
        + Ideal.exp (zAt a row p 1 - max (zAt a row p 0) (zAt a row p 1))))

/-- The same as a whole [50000,2] array. -/
def lsmK (a : FVec Ideal S50000x2 .f32) (row : FVec Ideal S1x2 .f32) : FVec Ideal S50000x2 .f32 :=
  fun j => lsmKAt a row ⟨(j 0).val, idx2_lt0 j⟩ ⟨(j 1).val, idx2_lt1 j⟩

theorem lsmK_apply (a : FVec Ideal S50000x2 .f32) (row : FVec Ideal S1x2 .f32) (p : Fin 50000) (q : Fin 2) :
    lsmK a row (ix2 p q) = lsmKAt a row p q := rfl

end Cert.Spec

end
-- ==== Proof.Spec.lean ====
/-
  The two programs' common shape, at the extended reals. Both compute, from node features x, an edge list ei (with a
  self-loop added at every node), weights W1, W2 and biases b1, b2:

      norm(e)   = dinv(src e) · dinv(dst e),   dinv(n) = 1/√deg(n) where deg(n) > 0, else 0,   deg(n) = #{e : dst e = n}
      agg(h)(n) = Σ_{e : dst e = n} h(src e) · norm(e)            (a gather of rows, a scaling, a scatter-add of rows)
      hidden    = agg(max(agg(x·W1) + b1, 0) · W2)                (a [50000, 2] array)
      result    = log-softmax of the rows of hidden + b2.

  The edge arithmetic (agg128 on 128 columns, agg2 on 2) is the SAME chain of operations in both programs and is carried
  here as one function of the edge list and of the dense array it is applied to; it is never opened. The two programs
  differ only in how the last step groups its subtraction: the reference takes (z - μ) - log Σ exp(z - μ) (lsmRef), the
  kernel z - (μ + log Σ exp(z - μ)) (Spec0's lsmK).
-/
import proofs.«126349_j90134183674022_1_alg».proof.Proof.RefRead
import proofs.«126349_j90134183674022_1_alg».proof.Proof.Spec0

noncomputable section

namespace Cert.Spec

open Idealize.ShloMosaic Cert.ReferenceIdeal Cert.ReferenceIdeal.Gen Cert.ReferenceIdeal.ReadP

/-- Rows of a [50000,128] array gathered along the edges' sources, scaled by the edge norm, summed into the edges'
    targets. -/
def agg128 (ei : (⟨S2x800000, .i32⟩ : BufTy).Contents (Elt Ideal)) (h : FVec Ideal S50000x128 .f32) : FVec Ideal S50000x128 .f32 :=
  Host.scatterAdd scatter_S50000x128_S850000x1_S850000x128_1_0_0_1 (val_main_v41 (F := Ideal)) (val_main_v42 (F := Ideal) ei)
    (mulf (Host.gather gather_S50000x128_S850000x1_S850000x128_1_0_n_n_0_1_1128 h (val_main_v36 (F := Ideal) ei))
      (val_main_v39 (F := Ideal) ei))

/-- The same on a [50000,2] array. -/
def agg2 (ei : (⟨S2x800000, .i32⟩ : BufTy).Contents (Elt Ideal)) (h : FVec Ideal S50000x2 .f32) : FVec Ideal S50000x2 .f32 :=
  Host.scatterAdd scatter_S50000x2_S850000x1_S850000x2_1_0_0_1 (val_main_v59 (F := Ideal)) (val_main_v60 (F := Ideal) ei)
    (mulf (Host.gather gather_S50000x2_S850000x1_S850000x2_1_0_n_n_0_1_12 h (val_main_v54 (F := Ideal) ei))
      (val_main_v57 (F := Ideal) ei))

/-- A [1,2] row laid over all 50000 rows. -/
def bcastRow2 (row : FVec Ideal S1x2 .f32) : FVec Ideal S50000x2 .f32 :=
  broadcastInDim S50000x2 ![0, 1] bcast_S1x2_S50000x2_0_1 row

/-- The row maxima of z (taken from -∞), laid back over the two columns. -/
def rowMaxB (z : FVec Ideal S50000x2 .f32) : FVec Ideal S50000x2 .f32 :=
  broadcastInDim S50000x2 ![0, 1] bcast_S50000x1_S50000x2_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x2_S50000_d1 h_S_)))

/-- The reference's log-softmax of the rows of z: (z - μ) - log Σ exp(z - μ). -/
def lsmRef (z : FVec Ideal S50000x2 .f32) : FVec Ideal S50000x2 .f32 :=
  subf (subf z (rowMaxB z)) (broadcastInDim S50000x2 ![0, 1] bcast_S50000x1_S50000x2_0_1
    (Host.log (broadcastInDim S50000x1 ![0] bcast_S50000_S50000x1_0
      (Host.reduceAdd (Host.exp (subf z (rowMaxB z))) (constant S_ .f32 0x00000000#32) reducesTo_S50000x2_S50000_d1 h_S_))))

/-- The second layer's aggregate before its bias: agg(max(agg(x·W1) + b1, 0)·W2). -/
def hidden (x0 : FVec Ideal S50000x128 .f32) (ei : (⟨S2x800000, .i32⟩ : BufTy).Contents (Elt Ideal)) (x2 : FVec Ideal S128x128 .f32) (x3 : FVec Ideal S128 .f32)
    (x4 : FVec Ideal S128x2 .f32) : FVec Ideal S50000x2 .f32 :=
  agg2 ei (dot2 (biasReluRow (agg128 ei (dot1 x0 x2)) (val_main_v44 (F := Ideal) x3)) x4)

/-- What the reference returns. -/
def refOut (x0 : FVec Ideal S50000x128 .f32) (ei : (⟨S2x800000, .i32⟩ : BufTy).Contents (Elt Ideal)) (x2 : FVec Ideal S128x128 .f32) (x3 : FVec Ideal S128 .f32)
    (x4 : FVec Ideal S128x2 .f32) (x5 : FVec Ideal S2 .f32) : FVec Ideal S50000x2 .f32 :=
  lsmRef (addf (hidden x0 ei x2 x3 x4) (bcastRow2 (val_main_v62 (F := Ideal) x5)))

/-- What the kernel returns. -/
def kerOut (x0 : FVec Ideal S50000x128 .f32) (ei : (⟨S2x800000, .i32⟩ : BufTy).Contents (Elt Ideal)) (x2 : FVec Ideal S128x128 .f32) (x3 : FVec Ideal S128 .f32)
    (x4 : FVec Ideal S128x2 .f32) (x5 : FVec Ideal S2 .f32) : FVec Ideal S50000x2 .f32 :=
  lsmK (hidden x0 ei x2 x3 x4) (val_main_v62 (F := Ideal) x5)

/-- The reference's last stage is refOut: the stages between are the functions above, name by name. -/
theorem ref_eq (x0 : FVec Ideal S50000x128 .f32) (ei : (⟨S2x800000, .i32⟩ : BufTy).Contents (Elt Ideal)) (x2 : FVec Ideal S128x128 .f32) (x3 : FVec Ideal S128 .f32)
    (x4 : FVec Ideal S128x2 .f32) (x5 : FVec Ideal S2 .f32) :
    val_main_v65 (F := Ideal) x0 ei x2 x3 x4 x5 = refOut x0 ei x2 x3 x4 x5 := by
  unfold val_main_v65 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1 val_main_v64 val_main_v63 val_main_v61 val_main_v58
    val_main_v55 val_main_v48 val_main_v47 val_main_call1_v0 val_main_call1_cst val_main_v46 val_main_v45 val_main_v43
    val_main_v40 val_main_v37 val_main_v30
  rfl

end Cert.Spec

end
-- ==== Proof.SpecAgg.lean ====
/-
  The edge aggregation as a function of the three edge arrays it reads — the sources s and targets d (each the edge
  list's row followed by the self-loops 0 … 49999) and the edge norm ν — and of the dense array h it is applied to:

      aggP s d ν h (n, j) = Σ_{e : d e = n} h(wrap (s e), j) · ν e,     wrap i = i + 50000 if i < 0, else i.

  Both programs spell it with the same operations: a compare, an add and a select for the wrap, a row gather, two
  broadcasts of ν, a product, and a row scatter-add into zeros. Spec's agg128 / agg2 are these at the edge arrays the edge
  list determines.
-/
import proofs.«126349_j90134183674022_1_alg».proof.Proof.Spec

noncomputable section

namespace Cert.Spec

open Idealize.ShloMosaic Cert.ReferenceIdeal Cert.ReferenceIdeal.Gen Cert.ReferenceIdeal.ReadP

/-- Negative indices wrapped once by the table's 50000 rows, as a column of start indices. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The aggregation on 128 columns, from the edge arrays. -/
def agg128P (s d : IVec S850000 32) (nrm : FVec Ideal S850000 .f32) (h : FVec Ideal S50000x128 .f32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (wrapCol s))
      (broadcastInDim S850000x128 ![0, 1] bcast_S850000x1_S850000x128_0_1
        (broadcastInDim S850000x1 ![0] bcast_S850000_S850000x1_0 nrm)))

/-- The aggregation on 2 columns, from the edge arrays. -/
def agg2P (s d : IVec S850000 32) (nrm : FVec Ideal S850000 .f32) (h : FVec Ideal S50000x2 .f32) : FVec Ideal S50000x2 .f32 :=
  Host.scatterAdd scatter_S50000x2_S850000x1_S850000x2_1_0_0_1
    (broadcastInDim S50000x2 ![] bcast_S_S50000x2 (constant S_ .f32 0x00000000#32))
    (broadcastInDim S850000x1 ![0] bcast_S850000_S850000x1_0 d)
    (mulf (Host.gather gather_S50000x2_S850000x1_S850000x2_1_0_n_n_0_1_12 h (wrapCol s))
      (broadcastInDim S850000x2 ![0, 1] bcast_S850000x1_S850000x2_0_1
        (broadcastInDim S850000x1 ![0] bcast_S850000_S850000x1_0 nrm)))

/-- agg128 is the aggregation at the edge list's own arrays. -/
theorem agg128_eq (ei : (⟨S2x800000, .i32⟩ : BufTy).Contents (Elt Ideal)) (h : FVec Ideal S50000x128 .f32) :
    agg128 ei h = agg128P (val_main_v3 (F := Ideal) ei) (val_main_v6 (F := Ideal) ei) (val_main_v29 (F := Ideal) ei) h := by
  unfold agg128 agg128P wrapCol val_main_v41 val_main_cst_8 val_main_v42 val_main_v36 val_main_v35 val_main_v34 val_main_v33
    val_main_c_7 val_main_v32 val_main_v31 val_main_c_6 val_main_v39 val_main_v38
  rfl

/-- agg2 likewise. -/
theorem agg2_eq (ei : (⟨S2x800000, .i32⟩ : BufTy).Contents (Elt Ideal)) (h : FVec Ideal S50000x2 .f32) :
    agg2 ei h = agg2P (val_main_v3 (F := Ideal) ei) (val_main_v6 (F := Ideal) ei) (val_main_v29 (F := Ideal) ei) h := by
  unfold agg2 agg2P wrapCol val_main_v59 val_main_cst_11 val_main_v60 val_main_v54 val_main_v53 val_main_v52 val_main_v51
    val_main_c_10 val_main_v50 val_main_v49 val_main_c_9 val_main_v57 val_main_v56
  rfl

end Cert.Spec

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Region0.lean ====
import proofs.«126349_j90134183674022_1_alg».proof.Proof.Gen.KernelIdeal.Frame
import proofs.«126349_j90134183674022_1_alg».proof.Proof.Spec0
import proofs.«126349_j90134183674022_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The two products' dimension numbers are the plain "rows by columns" ones -/

theorem lhs_blockDot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blockDot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blockDot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blockDot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product [2000,128]·[128,128] contracts axis 1 of the left operand with axis 0 of the right. -/
theorem plain_blockDot : SageSpec.PlainDot dot_S2000x128_S128x128_S2000x128_1_0_0_1_n_n where
  rank := rfl
  size := fun _ => rfl
  l0 := lhs_blockDot_0
  l1 := fun i q _ => lhs_blockDot_1 i q
  r0 := fun i q _ => rhs_blockDot_0 i q
  r1 := rhs_blockDot_1

theorem lhs_wholeDot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_wholeDot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_wholeDot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_wholeDot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The whole product [50000,128]·[128,128] likewise. -/
theorem plain_wholeDot : SageSpec.PlainDot Cert.ReferenceIdeal.dot_S50000x128_S128x128_S50000x128_1_0_0_1_n_n where
  rank := rfl
  size := fun _ => rfl
  l0 := lhs_wholeDot_0
  l1 := fun i q _ => lhs_wholeDot_1 i q
  r0 := fun i q _ => rhs_wholeDot_0 i q
  r1 := rhs_wholeDot_1

/-! ## Both sides at an index: a row against a column -/

/-- What the body stores, at (p, q) of the block: row p of the left block against column q of the weight (the change of
    format to bf16 is the identity at the extended reals). -/
theorem payload_at (x0 : Vec Ideal S2000x128 .f32) (x1 : Vec Ideal S128x128 .f32) (j : S2000x128.Idx) :
    k0_pay1 (F := Ideal) x0 x1 j = SageSpec.rowDot (fun i => x0 i) (fun i => x1 i) (j 0) (j 1) := by
  unfold k0_pay1
  exact SageSpec.matmul_zero_at plain_blockDot none (truncf .bf16 x0 bitsLt_bf16_f32) (truncf .bf16 x1 bitsLt_bf16_f32) j

/-- The whole product at (p, q): row p of x against column q of w. -/
theorem product_at (x : FVec Ideal Cert.ReferenceIdeal.S50000x128 .f32) (w : FVec Ideal Cert.ReferenceIdeal.S128x128 .f32)
    (i : Cert.ReferenceIdeal.S50000x128.Idx) :
    Cert.Spec.dot1 x w i = SageSpec.rowDot (fun a => x a) (fun a => w a) (i 0) (i 1) := by
  unfold Cert.Spec.dot1
  exact SageSpec.dotGeneral_at plain_wholeDot none x w i

/-! ## From blocks to the array -/

theorem zero_offsets : (![0, 0] : Fin 2 → Nat) = fun _ => 0 := funext fun a => by fin_cases a <;> rfl

/-- The printed index maps, decided once over the 25 grid points: the left operand's block and the output's block are
    block t of their arrays' rows, the weight's block is the whole weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays the region finds. -/
theorem flushed_eq (c : Dev nD) (t : Fin cfg0.N) :
    (dat0 (F := Ideal) V c).flushed 2 t
      = ((cfg0.win 2).blk t).view.read (Elt Ideal) (Cert.Spec.dot1 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e00, e01, e10, e11, e20, e21⟩ := block_indices t
  funext j
  show k0_pay1 (F := Ideal) (iblk0 V c 0 t) (iblk0 V c 1 t) j
    = Cert.Spec.dot1 (V c main_arg0) (V c main_arg2) (((cfg0.win 2).blk t).view.emb j)
  refine (payload_at _ _ j).trans ((product_at _ _ _).trans ?_).symm
  unfold SageSpec.rowDot
  refine Finset.sum_congr rfl fun κ _ => ?_
  have hj0 : (j 0).val < 2000 := (j 0).isLt
  have hj1 : (j 1).val < 128 := (j 1).isLt
  have hκ : κ.val < 128 := κ.isLt
  congr 1
  · show V c main_arg0 _ = V c main_arg0 (((cfg0.win 0).blk t).view.emb (ix2 (j 0) κ))
    congr 1
    funext a; apply Fin.ext
    match a with
    | ⟨0, _⟩ => show win0_2.index t (0 : Fin 2) * 2000 + 1 * (j 0).val = win0_0.index t (0 : Fin 2) * 2000 + 1 * (j 0).val; omega
    | ⟨1, _⟩ => show κ.val = win0_0.index t (1 : Fin 2) * 128 + 1 * κ.val; omega
  · show V c main_arg2 _ = V c main_arg2 (((cfg0.win 1).blk t).view.emb (ix2 κ (j 1)))
    congr 1
    funext a; apply Fin.ext
    match a with
    | ⟨0, _⟩ => show κ.val = win0_1.index t (0 : Fin 2) * 128 + 1 * κ.val; omega
    | ⟨1, _⟩ => show win0_2.index t (1 : Fin 2) * 128 + 1 * (j 1).val = win0_1.index t (1 : Fin 2) * 128 + 1 * (j 1).val; omega

/-- An index of the output array is in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row r of the output is in the block of point r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e20, e21⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0's output array after its 25 grid points: the product of the two arrays the region finds at its input
    windows, block of 2000 rows by block. -/
theorem value (c : Dev nD) :
    (dat0 (F := Ideal) V c).arrAt 2 cfg0.N = Cert.Spec.dot1 (V c main_arg0) (V c main_arg2) :=
  (dat0 (F := Ideal) V c).arrAt_eq_of_cover 2 (Cert.Spec.dot1 (V c main_arg0) (V c main_arg2))
    (fun t _ => flushed_eq V c t) covered

end Cert.KernelIdeal.Region0

end
-- ==== Proof.Region1.lean ====
import proofs.«126349_j90134183674022_1_alg».proof.Proof.Gen.KernelIdeal.Frame
import proofs.«126349_j90134183674022_1_alg».proof.Proof.Spec0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_offsets : (![0, 0] : Fin 2 → Nat) = fun _ => 0 := funext fun a => by fin_cases a <;> rfl

/-- The body's payload at row p, column q: the block's entry plus the bias row's entry of that column, clamped at 0. -/
theorem payload_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-- The whole-array function at row p, column q: the same expression of the array's entry and the row's. -/
theorem spec_apply (a : FVec Ideal S50000x128 .f32) (row : FVec Ideal S1x128 .f32) (p : Fin 50000) (q : Fin 128) :
    Cert.Spec.biasReluRow a row (ix2 p q) = max (a (ix2 p q) + row (ix2 (0 : Fin 1) q)) 0 := by
  unfold Cert.Spec.biasReluRow
  rw [maximumf_apply, addf_apply]
  rw [broadcastInDim_apply _ _ row (ix2 p q) (ix2 (0 : Fin 1) q) (fun a => by
    match a with
    | ⟨0, _⟩ => rfl
    | ⟨1, _⟩ => rfl)]
  rw [broadcastInDim_apply _ _ _ (ix2 p q) ix0 (fun a => a.elim0)]
  rw [constant_apply, Ideal.ofBits_zero_f32]

/-- One element: when the block's entry at y is the array's entry at i, the bias rows agree and i has y's column, the
    payload at y is the whole-array function at i. -/
theorem point_eq (a : FVec Ideal S50000x128 .f32) (row : FVec Ideal S1x128 .f32)
    (x0 : Vec Ideal S2000x128 .f32) (x1 : Vec Ideal S1x128 .f32) (y : S2000x128.Idx) (i : S50000x128.Idx)
    (h0 : x0 y = a i) (h1 : x1 = row) (hi : (i 1).val = (y 1).val) :
    k1_pay1 (F := Ideal) x0 x1 y = Cert.Spec.biasReluRow a row i := by
  subst h1
  obtain ⟨p, q, rfl⟩ : ∃ (p : Fin 2000) (q : Fin 128), y = ix2 p q := ⟨y 0, y 1, eq_ix2 y⟩
  obtain ⟨p', q', rfl⟩ : ∃ (p' : Fin 50000) (q' : Fin 128), i = ix2 p' q' := ⟨i 0, i 1, eq_ix2 i⟩
  obtain rfl : q' = q := Fin.ext hi
  rw [payload_apply, spec_apply, h0]

/-- The index maps over the 25 points: the first window's and the output's block row is the point, the bias row's block is
    the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the arrays the region finds. -/
theorem flushed_eq (c : Dev nD) (t : Fin cfg1.N) :
    (dat1 (F := Ideal) V c).flushed 2 t
      = ((cfg1.win 2).blk t).view.read (Elt Ideal) (Cert.Spec.biasReluRow (V c main_v43) (V c main_v44)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := idx_facts t
  funext j
  refine point_eq (V c main_v43) (V c main_v44) _ _ j (((cfg1.win 2).blk t).view.emb j) ?_ ?_ ?_
  · show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · funext y
    show V c main_v44 (((cfg1.win 1).blk t).view.emb y) = V c main_v44 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (1 : Fin 2) * 128 + 1 * (j 1).val = (j 1).val
    omega

/-- An index of the array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- Every index of the array is in some point's block: row r is in block r / 2000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- Region 1's output array after its 25 grid points: the bias row added to every row of the array the region finds
    at its first window, clamped at zero. -/
theorem value (c : Dev nD) :
    (dat1 (F := Ideal) V c).arrAt 2 cfg1.N = Cert.Spec.biasReluRow (V c main_v43) (V c main_v44) :=
  (dat1 (F := Ideal) V c).arrAt_eq_of_cover 2 _ (fun t _ => flushed_eq V c t) cover

end Cert.KernelIdeal.Region1

end
-- ==== Proof.Region2.lean ====
import proofs.«126349_j90134183674022_1_alg».proof.Proof.Gen.KernelIdeal.Frame
import proofs.«126349_j90134183674022_1_alg».proof.Proof.Spec0
import proofs.«126349_j90134183674022_1_alg».proof.Proof.LibSageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The two products' dimension numbers are the plain "rows by columns" ones -/

theorem lhs_blockDot_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_blockDot_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_blockDot_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_blockDot_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The block product [2000,128]·[128,2] contracts axis 1 of the left operand with axis 0 of the right. -/
theorem plain_blockDot : SageSpec.PlainDot dot_S2000x128_S128x2_S2000x2_1_0_0_1_n_n where
  rank := rfl
  size := fun _ => rfl
  l0 := lhs_blockDot_0
  l1 := fun i q _ => lhs_blockDot_1 i q
  r0 := fun i q _ => rhs_blockDot_0 i q
  r1 := rhs_blockDot_1

theorem lhs_wholeDot_0 (i : Cert.ReferenceIdeal.S50000x2.Idx) (q : Cert.ReferenceIdeal.dot_S50000x128_S128x2_S50000x2_1_0_0_1_n_n.contr.Idx) :
    (Cert.ReferenceIdeal.dot_S50000x128_S128x2_S50000x2_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x2_S50000x2_1_0_0_1_n_n.lhsBatch by decide), dif_pos (show (0 : Fin Cert.ReferenceIdeal.S50000x128.rank) ∈ Cert.ReferenceIdeal.dot_S50000x128_S128x2_S50000x2_1_0_0_1_n_n.lhsNonContracting by decide)]
  rfl
theorem lhs_wholeDot_1 (i : Cert.ReferenceIdeal.S50000x2.Idx) (q : Cert.ReferenceIdeal.dot_S50000x128_S128x2_S50000x2_1_0_0_1_n_n.contr.Idx) :
    (Cert.ReferenceIdeal.dot_S50000x128_S128x2_S50000x2_1_0_0_1_n_n.lhsIdx i q 1).val = (q ⟨0, by decide⟩).val :=
  Cert.ReferenceIdeal.dot_S50000x128_S128x2_S50000x2_1_0_0_1_n_n.lhsIdx_val_of_single rfl i q
theorem rhs_wholeDot_0 (i : Cert.ReferenceIdeal.S50000x2.Idx) (q : Cert.ReferenceIdeal.dot_S50000x128_S128x2_S50000x2_1_0_0_1_n_n.contr.Idx) :
    (Cert.ReferenceIdeal.dot_S50000x128_S128x2_S50000x2_1_0_0_1_n_n.rhsIdx i q 0).val = (q ⟨0, by decide⟩).val :=
  Cert.ReferenceIdeal.dot_S50000x128_S128x2_S50000x2_1_0_0_1_n_n.rhsIdx_val_of_single rfl i q
theorem rhs_wholeDot_1 (i : Cert.ReferenceIdeal.S50000x2.Idx) (q : Cert.ReferenceIdeal.dot_S50000x128_S128x2_S50000x2_1_0_0_1_n_n.contr.Idx) :
    (Cert.ReferenceIdeal.dot_S50000x128_S128x2_S50000x2_1_0_0_1_n_n.rhsIdx i q 1).val = (i 1).val := by
  unfold DotDims.rhsIdx
  rw [dif_neg (show ¬(1 : Fin Cert.ReferenceIdeal.S128x2.rank) ∈ Cert.ReferenceIdeal.dot_S50000x128_S128x2_S50000x2_1_0_0_1_n_n.rhsBatch by decide), dif_pos (show (1 : Fin Cert.ReferenceIdeal.S128x2.rank) ∈ Cert.ReferenceIdeal.dot_S50000x128_S128x2_S50000x2_1_0_0_1_n_n.rhsNonContracting by decide)]
  rfl

/-- The whole product [50000,128]·[128,2] likewise. -/
theorem plain_wholeDot : SageSpec.PlainDot Cert.ReferenceIdeal.dot_S50000x128_S128x2_S50000x2_1_0_0_1_n_n where
  rank := rfl
  size := fun _ => rfl
  l0 := lhs_wholeDot_0
  l1 := fun i q _ => lhs_wholeDot_1 i q
  r0 := fun i q _ => rhs_wholeDot_0 i q
  r1 := rhs_wholeDot_1

/-! ## Both sides at an index: a row against a column -/

/-- What the body stores, at (p, q) of the block: row p of the left block against column q of the weight (the cast of
    the left block to its own shape is the identity). -/
theorem payload_at (x0 : Vec Ideal S2000x128 .f32) (x1 : Vec Ideal S128x2 .f32) (j : S2000x2.Idx) :
    k2_pay1 (F := Ideal) x0 x1 j = SageSpec.rowDot (fun i => x0 i) (fun i => x1 i) (j 0) (j 1) := by
  unfold k2_pay1
  refine (SageSpec.matmul_zero_at (φ₁ := .f32) (φ₂ := .f32) plain_blockDot none
    (shapeCast S2000x128 x0 shapeCasts_S2000x128_S2000x128) x1 j).trans ?_
  rw [shapeCast_self]

/-- The whole product at (p, q): row p of h against column q of w. -/
theorem product_at (x : FVec Ideal Cert.ReferenceIdeal.S50000x128 .f32) (w : FVec Ideal Cert.ReferenceIdeal.S128x2 .f32)
    (i : Cert.ReferenceIdeal.S50000x2.Idx) :
    Cert.Spec.dot2 x w i = SageSpec.rowDot (fun a => x a) (fun a => w a) (i 0) (i 1) := by
  unfold Cert.Spec.dot2
  exact SageSpec.dotGeneral_at plain_wholeDot none x w i

/-! ## From blocks to the array -/

theorem zero_offsets : (![0, 0] : Fin 2 → Nat) = fun _ => 0 := funext fun a => by fin_cases a <;> rfl

/-- The printed index maps, decided once over the 25 grid points: the left operand's block and the output's block are
    block t of their arrays' rows, the weight's block is the whole weight. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays the region finds. -/
theorem flushed_eq (c : Dev nD) (t : Fin cfg2.N) :
    (dat2 (F := Ideal) V c).flushed 2 t
      = ((cfg2.win 2).blk t).view.read (Elt Ideal) (Cert.Spec.dot2 (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S2000x128) zero_offsets, View.ld_unit_zero (S := S128x2) zero_offsets]
  obtain ⟨e00, e01, e10, e11, e20, e21⟩ := block_indices t
  funext j
  show k2_pay1 (F := Ideal) (iblk2 V c 0 t) (iblk2 V c 1 t) j
    = Cert.Spec.dot2 (V c main_v45) (V c main_arg4) (((cfg2.win 2).blk t).view.emb j)
  refine (payload_at _ _ j).trans ((product_at _ _ _).trans ?_).symm
  unfold SageSpec.rowDot
  refine Finset.sum_congr rfl fun κ _ => ?_
  have hj0 : (j 0).val < 2000 := (j 0).isLt
  have hj1 : (j 1).val < 2 := (j 1).isLt
  have hκ : κ.val < 128 := κ.isLt
  congr 1
  · show V c main_v45 _ = V c main_v45 (((cfg2.win 0).blk t).view.emb (ix2 (j 0) κ))
    congr 1
    funext a; apply Fin.ext
    match a with
    | ⟨0, _⟩ => show win2_2.index t (0 : Fin 2) * 2000 + 1 * (j 0).val = win2_0.index t (0 : Fin 2) * 2000 + 1 * (j 0).val; omega
    | ⟨1, _⟩ => show κ.val = win2_0.index t (1 : Fin 2) * 128 + 1 * κ.val; omega
  · show V c main_arg4 _ = V c main_arg4 (((cfg2.win 1).blk t).view.emb (ix2 κ (j 1)))
    congr 1
    funext a; apply Fin.ext
    match a with
    | ⟨0, _⟩ => show κ.val = win2_1.index t (0 : Fin 2) * 128 + 1 * κ.val; omega
    | ⟨1, _⟩ => show win2_2.index t (1 : Fin 2) * 2 + 1 * (j 1).val = win2_1.index t (1 : Fin 2) * 2 + 1 * (j 1).val; omega

/-- An index of the output array is in point t's block iff each coordinate is in the block's range on its axis. -/
theorem mem_block (t : Fin cfg2.N) (i : S50000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v46).slice (win2_2.rect t)).set ↔ _
  rw [View.set_slice_whole, Rect.mem_set_unit]
  exact Iff.rfl

/-- Row r of the output is in the block of point r / 2000. -/
theorem covered (i : S50000x2.Idx) :
    ∃ t : Fin cfg2.N, (cfg2.win 2).flush t = true ∧ i ∈ ((cfg2.win 2).blk t).view.set := by
  have hi0 : (i 0).val < 50000 := (i 0).isLt
  have hi1 : (i 1).val < 2 := (i 1).isLt
  have hN : cfg2.N = 25 := N_2
  let t : Fin cfg2.N := ⟨(i 0).val / 2000, by rw [hN]; omega⟩
  obtain ⟨-, -, -, -, e20, e21⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 2 ≤ (i 1).val ∧ (i 1).val < win2_2.index t (1 : Fin 2) * 2 + 2; omega

/-- Region 2's output array after its 25 grid points: the product of the two arrays the region finds at its input
    windows, block of 2000 rows by block. -/
theorem value (c : Dev nD) :
    (dat2 (F := Ideal) V c).arrAt 2 cfg2.N = Cert.Spec.dot2 (V c main_v45) (V c main_arg4) :=
  (dat2 (F := Ideal) V c).arrAt_eq_of_cover 2 (Cert.Spec.dot2 (V c main_v45) (V c main_arg4))
    (fun t _ => flushed_eq V c t) covered

end Cert.KernelIdeal.Region2

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

/-!
# Keepdims column forms and reductions over a last axis of extent two

A row-wise reduction kept as a column meets three layout steps the library's layout file does not spell: a vector `[a]`
cast to the column `[a, 1]`, a column `[a, 1]` broadcast over `[a, b]`, and the index a reduction over the last axis
inserts its coordinate into. With those, at the extended reals, a maximum reduction from minus infinity and a sum
reduction over the two entries of a row are the larger of the two and their sum.
-/

noncomputable section

namespace Cert.LibKeepdims

open Idealize.ShloMosaic Idealize.ShloMosaic.ValueIdx

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a reduction over the LAST axis of an `[a, b]` array inserts coordinate `k` into, from row `p`, is `(p, k)`. -/
theorem lift_last_ix2 {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ =>
    exact (dif_neg Nat.zero_ne_one).trans (dif_pos Nat.zero_lt_one)
  | ⟨1, _⟩ =>
    exact dif_pos rfl

/-- A fold of `max` from `⊥` over the two coordinates of `Fin 2` is the larger of the two values. -/
theorem fold_max_bot_fin2 (g : Fin 2 → EReal) : (Finset.univ : Finset (Fin 2)).fold max ⊥ g = max (g 0) (g 1) := by
  simp only [Fin.univ_succ, Finset.fold_cons, Finset.fold_map, Finset.univ_unique, Finset.fold_singleton]
  show max (g 0) (max (g 1) ⊥) = _
  rw [max_bot_right]

/-- The single-precision word of minus infinity denotes `⊥`. -/
theorem ofBits_neg_inf_f32 : Ideal.ofBits .f32 0xFF800000#32 = ⊥ := by simp [Ideal.ofBits, Ideal.ieee]

/-- A single-precision maximum reduction from minus infinity over the last axis of an `[a, 2]` array is, at row `p`, the larger
    of the row's two entries. -/
theorem multiReduction_maximumf_last2_apply {a : ℕ} (src : FVec Ideal ⟨2, ![a, 2]⟩ .f32)
    (h : (⟨2, ![a, 2]⟩ : Shape).Reduces [1] ⟨1, ![a]⟩) (hφ : FKind.Formats .f32)
    (hacc : (0xFF800000#32 : BitVec FTy.f32.bits) = FKind.maximumf.neutral .f32 hφ) (p : Fin a) :
    multiReduction .maximumf [1] ⟨1, ![a]⟩ src 0xFF800000#32 h hφ hacc (ix1 p)
      = max (src (ix2 p (0 : Fin 2))) (src (ix2 p (1 : Fin 2))) := by
  refine (Ideal.multiReduction_maximumf_single src _ h hφ hacc (ix1 p)).trans ?_
  have hf : (src ∘ h.lift (ix1 p)) = fun k : Fin 2 => src (ix2 p k) := funext fun k => congrArg src (lift_last_ix2 h p k)
  have hb : (FloatOps.ofBits (F := Ideal) .f32 0xFF800000#32 : EReal) = ⊥ := ofBits_neg_inf_f32
  refine Eq.trans ?_ (fold_max_bot_fin2 fun k : Fin 2 => src (ix2 p k))
  rw [← hb]
  exact congrArg (fun f => Finset.fold max (FloatOps.ofBits (F := Ideal) .f32 0xFF800000#32) f (Finset.univ : Finset (Fin 2))) hf

/-- A sum reduction over the last axis of an `[a, 2]` array is, at row `p`, the sum of the row's two entries. -/
theorem multiReduction_add_last2_apply {a : ℕ} {φ : FTy} (src : FVec Ideal ⟨2, ![a, 2]⟩ φ) (acc : BitVec φ.bits)
    (h : (⟨2, ![a, 2]⟩ : Shape).Reduces [1] ⟨1, ![a]⟩) (hφ : FKind.Formats φ) (hacc : acc = FKind.add.neutral φ hφ) (p : Fin a) :
    multiReduction .add [1] ⟨1, ![a]⟩ src acc h hφ hacc (ix1 p) = src (ix2 p (0 : Fin 2)) + src (ix2 p (1 : Fin 2)) := by
  refine (Ideal.multiReduction_add_single src acc h hφ hacc (ix1 p)).trans ?_
  refine (Fin.sum_univ_two _).trans ?_
  rw [lift_last_ix2 h p 0, lift_last_ix2 h p 1]

end Cert.LibKeepdims

end
-- ==== Proof.Region3.lean ====
import proofs.«126349_j90134183674022_1_alg».proof.Proof.Gen.KernelIdeal.Frame
import proofs.«126349_j90134183674022_1_alg».proof.Proof.Spec0
import proofs.«126349_j90134183674022_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, however they are spelt. -/
theorem zero_offsets : (![0, 0] : Fin 2 → Nat) = fun _ => 0 := funext fun a => by fin_cases a <;> rfl

/-- The rows' maxima, from minus infinity over the two columns, kept as a column. -/
def rowMaxCol (Z : FVec Ideal S2000x2 .f32) : FVec Ideal S2000x1 .f32 :=
  shapeCast S2000x1 (multiReduction .maximumf [1] S2000 Z 0xFF800000#32 reduces_S2000x2_S2000 (.inl rfl) rfl) shapeCasts_S2000_S2000x1

/-- The rows' sums of exponentials of the entries less the row maximum, kept as a column. -/
def expSumCol (Z : FVec Ideal S2000x2 .f32) : FVec Ideal S2000x1 .f32 :=
  shapeCast S2000x1 (multiReduction .add [1] S2000
    (exp (subf Z (broadcastTo S2000x2 (rowMaxCol Z) broadcasts_S2000x1_S2000x2))) 0x00000000#32 reduces_S2000x2_S2000 (.inl rfl) rfl)
    shapeCasts_S2000_S2000x1

/-- The body's payload: with Z the block plus the bias row, Z less the column (row maximum + log of the row's sum of
    exponentials) laid over the two columns. -/
theorem payload_eq (x0 : Vec Ideal S2000x2 .f32) (x1 : Vec Ideal S1x2 .f32) :
    k3_pay1 (F := Ideal) x0 x1
      = subf (addf x0 (broadcastTo S2000x2 x1 broadcasts_S1x2_S2000x2))
          (broadcastTo S2000x2 (addf (rowMaxCol (addf x0 (broadcastTo S2000x2 x1 broadcasts_S1x2_S2000x2)))
            (log (expSumCol (addf x0 (broadcastTo S2000x2 x1 broadcasts_S1x2_S2000x2))))) broadcasts_S2000x1_S2000x2) := by
  unfold k3_pay1
  simp only [shapeCast_self]
  rfl

/-- The column of row maxima at row p: the larger of the row's two entries. -/
theorem rowMaxCol_apply (Z : FVec Ideal S2000x2 .f32) (p : Fin 2000) (u : Fin 1) :
    rowMaxCol Z (ix2 p u) = max (Z (ix2 p (0 : Fin 2))) (Z (ix2 p (1 : Fin 2))) :=
  (Cert.LibKeepdims.shapeCast_a_a1_apply _ _ p u).trans (Cert.LibKeepdims.multiReduction_maximumf_last2_apply Z _ _ _ p)

/-- The column of sums of exponentials at row p. -/
theorem expSumCol_apply (Z : FVec Ideal S2000x2 .f32) (p : Fin 2000) (u : Fin 1) :
    expSumCol Z (ix2 p u)
      = Ideal.exp (Z (ix2 p (0 : Fin 2)) - max (Z (ix2 p (0 : Fin 2))) (Z (ix2 p (1 : Fin 2))))
        + Ideal.exp (Z (ix2 p (1 : Fin 2)) - max (Z (ix2 p (0 : Fin 2))) (Z (ix2 p (1 : Fin 2)))) := by
  refine (Cert.LibKeepdims.shapeCast_a_a1_apply _ _ p u).trans ?_
  refine (Cert.LibKeepdims.multiReduction_add_last2_apply _ _ _ _ _ p).trans ?_
  show Ideal.exp (Z (ix2 p (0 : Fin 2)) - broadcastTo S2000x2 (rowMaxCol Z) broadcasts_S2000x1_S2000x2 (ix2 p (0 : Fin 2)))
      + Ideal.exp (Z (ix2 p (1 : Fin 2)) - broadcastTo S2000x2 (rowMaxCol Z) broadcasts_S2000x1_S2000x2 (ix2 p (1 : Fin 2))) = _
  rw [Cert.LibKeepdims.broadcastTo_a1_ab_apply, Cert.LibKeepdims.broadcastTo_a1_ab_apply, rowMaxCol_apply]

/-- The body's payload at row p, column q, in the block's row p plus the bias row. -/
theorem payload_apply (x0 : Vec Ideal S2000x2 .f32) (x1 : Vec Ideal S1x2 .f32) (p : Fin 2000) (q : Fin 2) :
    k3_pay1 (F := Ideal) x0 x1 (ix2 p q)
      = (x0 (ix2 p q) + x1 (ix2 (0 : Fin 1) q))
        - (max (x0 (ix2 p (0 : Fin 2)) + x1 (ix2 (0 : Fin 1) (0 : Fin 2))) (x0 (ix2 p (1 : Fin 2)) + x1 (ix2 (0 : Fin 1) (1 : Fin 2)))
          + Ideal.log (Ideal.exp ((x0 (ix2 p (0 : Fin 2)) + x1 (ix2 (0 : Fin 1) (0 : Fin 2)))
                - max (x0 (ix2 p (0 : Fin 2)) + x1 (ix2 (0 : Fin 1) (0 : Fin 2))) (x0 (ix2 p (1 : Fin 2)) + x1 (ix2 (0 : Fin 1) (1 : Fin 2))))
              + Ideal.exp ((x0 (ix2 p (1 : Fin 2)) + x1 (ix2 (0 : Fin 1) (1 : Fin 2)))
                - max (x0 (ix2 p (0 : Fin 2)) + x1 (ix2 (0 : Fin 1) (0 : Fin 2))) (x0 (ix2 p (1 : Fin 2)) + x1 (ix2 (0 : Fin 1) (1 : Fin 2)))))) := by
  have hZ : ∀ k : Fin 2, (addf x0 (broadcastTo S2000x2 x1 broadcasts_S1x2_S2000x2) : FVec Ideal S2000x2 .f32) (ix2 p k)
      = x0 (ix2 p k) + x1 (ix2 (0 : Fin 1) k) := fun k => by rw [addf_apply, broadcastTo_1b_ab_apply]
  rw [payload_eq, subf_apply, Cert.LibKeepdims.broadcastTo_a1_ab_apply]
  show _ - (rowMaxCol _ (ix2 p (0 : Fin 1)) + Ideal.log (expSumCol _ (ix2 p (0 : Fin 1)))) = _
  rw [rowMaxCol_apply, expSumCol_apply, hZ q, hZ 0, hZ 1]

/-- One element: when the block's row p is the array's row of index i, the bias rows agree and i has column q, the
    payload at (p, q) is the whole-array function at i. -/
theorem point_eq (a : FVec Ideal S50000x2 .f32) (row : FVec Ideal S1x2 .f32)
    (x0 : Vec Ideal S2000x2 .f32) (x1 : Vec Ideal S1x2 .f32) (p : Fin 2000) (q : Fin 2) (i : S50000x2.Idx)
    (h0 : ∀ k : Fin 2, x0 (ix2 p k) = a (ix2 (⟨(i 0).val, idx2_lt0 i⟩ : Fin 50000) k)) (h1 : x1 = row)
    (hi : (i 1).val = q.val) :
    k3_pay1 (F := Ideal) x0 x1 (ix2 p q) = Cert.Spec.lsmK a row i := by
  subst h1
  obtain ⟨p', q', rfl⟩ : ∃ (p' : Fin 50000) (q' : Fin 2), i = ix2 p' q' := ⟨i 0, i 1, eq_ix2 i⟩
  obtain rfl : q' = q := Fin.ext hi
  have h0' : ∀ k : Fin 2, x0 (ix2 p k) = a (ix2 p' k) := h0
  rw [payload_apply, Cert.Spec.lsmK_apply]
  unfold Cert.Spec.lsmKAt Cert.Spec.zAt
  rw [h0' q', h0' 0, h0' 1]

/-- The index maps over the 25 points: the first window's and the output's block row is the point, the bias row's block is
    the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the arrays the region finds. -/
theorem flushed_eq (c : Dev nD) (t : Fin cfg3.N) :
    (dat3 (F := Ideal) V c).flushed 2 t
      = ((cfg3.win 2).blk t).view.read (Elt Ideal) (Cert.Spec.lsmK (V c main_v59) (V c main_v60)) := by
  show (cfg3.win 2).cut (grid3.coords t) ((dat3 V c).after 2 t) = _
  rw [after3_2]
  unfold out3_2
  rw [View.canon_unit_zero zero_offsets]
  simp only [View.ld_unit_zero (S := S2000x2) zero_offsets, View.ld_unit_zero (S := S1x2) zero_offsets]
  obtain ⟨e0, e1, e2, e3, e4, e5⟩ := idx_facts t
  funext j
  obtain ⟨p, q, rfl⟩ : ∃ (p : Fin 2000) (q : Fin 2), j = ix2 p q := ⟨j 0, j 1, eq_ix2 j⟩
  refine point_eq (V c main_v59) (V c main_v60) _ _ p q (((cfg3.win 2).blk t).view.emb (ix2 p q)) (fun k => ?_) ?_ ?_
  · show V c main_v59 (((cfg3.win 0).blk t).view.emb (ix2 p k)) = V c main_v59 _
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 2 + 1 * k.val = k.val; omega
  · funext y
    show V c main_v60 (((cfg3.win 1).blk t).view.emb y) = V c main_v60 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 2 + 1 * (y 1).val = (y 1).val; omega
  · show win3_2.index t (1 : Fin 2) * 2 + 1 * q.val = q.val
    omega

/-- An index of the array is in point t's block iff each coordinate is in the block's range on its axis. -/
theorem mem_blk (t : Fin cfg3.N) (i : S50000x2.Idx) :
    i ∈ ((cfg3.win 2).blk t).view.set ↔ ∀ a : Fin 2, win3_2.index t a * S2000x2.size a ≤ (i a).val
      ∧ (i a).val < win3_2.index t a * S2000x2.size a + S2000x2.size a := by
  show i ∈ ((View.whole main_v61).slice (win3_2.rect t)).set ↔ _
  rw [View.set_slice_whole, Rect.mem_set_unit]
  exact Iff.rfl

/-- Every index of the array is in some point's block: row r is in block r / 2000. -/
theorem cover (i : S50000x2.Idx) :
    ∃ t : Fin cfg3.N, (cfg3.win 2).flush t = true ∧ i ∈ ((cfg3.win 2).blk t).view.set := by
  have hi0 : (i 0).val < 50000 := (i 0).isLt
  have hi1 : (i 1).val < 2 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- Region 3's output array after its 25 grid points: row by row the logarithm of the softmax of the first window's
    array plus the bias row. -/
theorem value (c : Dev nD) :
    (dat3 (F := Ideal) V c).arrAt 2 cfg3.N = Cert.Spec.lsmK (V c main_v59) (V c main_v60) :=
  (dat3 (F := Ideal) V c).arrAt_eq_of_cover 2 _ (fun t _ => flushed_eq V c t) cover

end Cert.KernelIdeal.Region3

end
-- ==== Proof.Chain.lean ====
/-
  What the kernel's @main leaves in its result buffer, as a function of the six arguments.

  @main is three stretches of host operations (the edge arrays: sources, targets, norm), the first product on the matrix
  unit, a stretch (the first aggregation; the bias as a row), the bias-and-clamp region, the second product, a stretch (the
  second aggregation; the second bias as a row) and the log-softmax region. The contents at each boundary are a fold
  from the launch memory. Read backwards from the result: the last region's output array is lsmK of what its two windows
  find; those are the last stretch's aggregate of the second product and the bias row; and so on down to the arguments.
  The edge arrays are made once, before the first region, and no later item writes them.
-/
import proofs.«126349_j90134183674022_1_alg».proof.Proof.Gen.KernelIdeal.Frame
import proofs.«126349_j90134183674022_1_alg».proof.Proof.SpecAgg
import proofs.«126349_j90134183674022_1_alg».proof.Proof.Region0
import proofs.«126349_j90134183674022_1_alg».proof.Proof.Region1
import proofs.«126349_j90134183674022_1_alg».proof.Proof.Region2
import proofs.«126349_j90134183674022_1_alg».proof.Proof.Region3
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo (after_cons after_nil)
open Cert.ReferenceIdeal.ReadP (val_main_v3 val_main_v6 val_main_v29 val_main_v44 val_main_v62)

variable (m : (ℓ : Loc nD τ sig) → Buf (Elt Ideal) ℓ) (ρ : Dev nD → PrngReg)

/-- A buffer that no operation of a stretch writes keeps its contents across the stretch: the stretch's operations
    are listed and each one's result buffer is another reference. -/
local macro "not_written" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## A buffer the first three stretches do not write is, at the first region's entry, as launched -/

theorem W3_keep (c : Dev nD) (r : Ref sig .tc)
    (h0 : StableHlo.after hostOps0 (W0 m ρ c) (Proc.devRef .tc r) = W0 m ρ c (Proc.devRef .tc r))
    (h1 : StableHlo.after hostOps0_1 (W1 m ρ c) (Proc.devRef .tc r) = W1 m ρ c (Proc.devRef .tc r))
    (h2 : StableHlo.after hostOps0_2 (W2 m ρ c) (Proc.devRef .tc r) = W2 m ρ c (Proc.devRef .tc r)) :
    W3 m ρ c (Proc.devRef .tc r) = m ((c : Thread nD τ).loc r) :=
  h2.trans (h1.trans (h0.trans rfl))

theorem W3_arg0 (c : Dev nD) : W3 m ρ c (Proc.devRef .tc main_arg0) = m ((c : Thread nD τ).loc main_arg0) :=
  W3_keep m ρ c main_arg0 (by not_written hostOps0) (by not_written hostOps0_1) (by not_written hostOps0_2)
theorem W3_arg2 (c : Dev nD) : W3 m ρ c (Proc.devRef .tc main_arg2) = m ((c : Thread nD τ).loc main_arg2) :=
  W3_keep m ρ c main_arg2 (by not_written hostOps0) (by not_written hostOps0_1) (by not_written hostOps0_2)
theorem W3_arg3 (c : Dev nD) : W3 m ρ c (Proc.devRef .tc main_arg3) = m ((c : Thread nD τ).loc main_arg3) :=
  W3_keep m ρ c main_arg3 (by not_written hostOps0) (by not_written hostOps0_1) (by not_written hostOps0_2)
theorem W3_arg4 (c : Dev nD) : W3 m ρ c (Proc.devRef .tc main_arg4) = m ((c : Thread nD τ).loc main_arg4) :=
  W3_keep m ρ c main_arg4 (by not_written hostOps0) (by not_written hostOps0_1) (by not_written hostOps0_2)
theorem W3_arg5 (c : Dev nD) : W3 m ρ c (Proc.devRef .tc main_arg5) = m ((c : Thread nD τ).loc main_arg5) :=
  W3_keep m ρ c main_arg5 (by not_written hostOps0) (by not_written hostOps0_1) (by not_written hostOps0_2)

/-! ## The edge arrays at the first region's entry (for any float family: the chain is integer and pointwise work) -/

section Edge
variable {F : FTy → Type} [FloatOps F]

/-- The sources: the edge list's first row, then 0 … 49999. -/
theorem W3_src (mF : (ℓ : Loc nD τ sig) → Buf (Elt F) ℓ) (c : Dev nD) : W3 mF ρ c (Proc.devRef .tc main_v3) = val_main_v3 (F := F) (mF ((c : Thread nD τ).loc main_arg1)) := by
  simp only [W3, W2, W1, hostOps0, hostOps0_1, hostOps0_2]
  after_results_simp
  rfl

/-- The targets: the edge list's second row, then 0 … 49999. -/
theorem W3_dst (mF : (ℓ : Loc nD τ sig) → Buf (Elt F) ℓ) (c : Dev nD) : W3 mF ρ c (Proc.devRef .tc main_v6) = val_main_v6 (F := F) (mF ((c : Thread nD τ).loc main_arg1)) := by
  simp only [W3, W2, W1, hostOps0, hostOps0_1, hostOps0_2]
  after_results_simp
  rfl

/-- The edge norm. -/
theorem W3_nrm (mF : (ℓ : Loc nD τ sig) → Buf (Elt F) ℓ) (c : Dev nD) : W3 mF ρ c (Proc.devRef .tc main_v29) = val_main_v29 (F := F) (mF ((c : Thread nD τ).loc main_arg1)) := by
  simp only [W3, W2, W1, hostOps0, hostOps0_1, hostOps0_2]
  after_results_simp
  rfl

end Edge

/-! ## Carried past the first region and the stretch after it -/

theorem W4_of_W3 (c : Dev nD) (r : Ref sig .tc) (hr : ∀ w, Pipeline.arrRef spec0 w ≠ r) :
    W4 m ρ c (Proc.devRef .tc r) = W3 m ρ c (Proc.devRef .tc r) := W4_of_ne m ρ c r hr

theorem W7_of_W4 (c : Dev nD) (r : Ref sig .tc) (h1 : ∀ w, Pipeline.arrRef spec1 w ≠ r) (h2 : ∀ w, Pipeline.arrRef spec2 w ≠ r)
    (hs : StableHlo.after hostOps1 (W4 m ρ c) (Proc.devRef .tc r) = W4 m ρ c (Proc.devRef .tc r)) :
    W7 m ρ c (Proc.devRef .tc r) = W4 m ρ c (Proc.devRef .tc r) :=
  (W7_of_ne m ρ c r h2).trans ((W6_of_ne m ρ c r h1).trans hs)

/-! ## The edge arrays and the arguments at the later boundaries -/

theorem W4_src (c : Dev nD) : W4 m ρ c (Proc.devRef .tc main_v3) = val_main_v3 (F := Ideal) (m ((c : Thread nD τ).loc main_arg1)) :=
  (W4_of_ne m ρ c main_v3 (by decide)).trans (W3_src ρ m c)
theorem W4_dst (c : Dev nD) : W4 m ρ c (Proc.devRef .tc main_v6) = val_main_v6 (F := Ideal) (m ((c : Thread nD τ).loc main_arg1)) :=
  (W4_of_ne m ρ c main_v6 (by decide)).trans (W3_dst ρ m c)
theorem W4_nrm (c : Dev nD) : W4 m ρ c (Proc.devRef .tc main_v29) = val_main_v29 (F := Ideal) (m ((c : Thread nD τ).loc main_arg1)) :=
  (W4_of_ne m ρ c main_v29 (by decide)).trans (W3_nrm ρ m c)

theorem W7_src (c : Dev nD) : W7 m ρ c (Proc.devRef .tc main_v3) = val_main_v3 (F := Ideal) (m ((c : Thread nD τ).loc main_arg1)) :=
  (W7_of_W4 m ρ c main_v3 (by decide) (by decide) (by not_written hostOps1)).trans (W4_src m ρ c)
theorem W7_dst (c : Dev nD) : W7 m ρ c (Proc.devRef .tc main_v6) = val_main_v6 (F := Ideal) (m ((c : Thread nD τ).loc main_arg1)) :=
  (W7_of_W4 m ρ c main_v6 (by decide) (by decide) (by not_written hostOps1)).trans (W4_dst m ρ c)
theorem W7_nrm (c : Dev nD) : W7 m ρ c (Proc.devRef .tc main_v29) = val_main_v29 (F := Ideal) (m ((c : Thread nD τ).loc main_arg1)) :=
  (W7_of_W4 m ρ c main_v29 (by decide) (by decide) (by not_written hostOps1)).trans (W4_nrm m ρ c)

theorem W4_arg3 (c : Dev nD) : W4 m ρ c (Proc.devRef .tc main_arg3) = m ((c : Thread nD τ).loc main_arg3) :=
  (W4_of_ne m ρ c main_arg3 (by decide)).trans (W3_arg3 m ρ c)
theorem W6_arg4 (c : Dev nD) : W6 m ρ c (Proc.devRef .tc main_arg4) = m ((c : Thread nD τ).loc main_arg4) :=
  (W6_of_ne m ρ c main_arg4 (by decide)).trans
    ((show StableHlo.after hostOps1 (W4 m ρ c) (Proc.devRef .tc main_arg4) = W4 m ρ c (Proc.devRef .tc main_arg4) from by not_written hostOps1).trans
      ((W4_of_ne m ρ c main_arg4 (by decide)).trans (W3_arg4 m ρ c)))
theorem W7_arg5 (c : Dev nD) : W7 m ρ c (Proc.devRef .tc main_arg5) = m ((c : Thread nD τ).loc main_arg5) :=
  (W7_of_W4 m ρ c main_arg5 (by decide) (by decide) (by not_written hostOps1)).trans
    ((W4_of_ne m ρ c main_arg5 (by decide)).trans (W3_arg5 m ρ c))

/-! ## A bias as a one-row matrix: the kernel's reshape [n] → [1, n] and the reference's broadcast along axis 1 agree -/

theorem row128_eq (b : FVec Ideal S128 .f32) :
    shapeCast S1x128 b shapeCasts_S128_S1x128 = val_main_v44 (F := Ideal) b := by
  funext i
  rw [Cert.ReferenceIdeal.ReadP.val_main_v44_apply]
  refine shapeCast_apply b _ i _ ?_
  rewrite [Shape.rowMajor_val_one, Shape.rowMajor_val_two]
  have h0 : (i 0).val < 1 := (i 0).isLt
  show (i 1).val = (i 0).val * 128 + (i 1).val
  omega

theorem row2_eq (b : FVec Ideal S2 .f32) :
    shapeCast S1x2 b shapeCasts_S2_S1x2 = val_main_v62 (F := Ideal) b := by
  funext i
  rw [Cert.ReferenceIdeal.ReadP.val_main_v62_apply]
  refine shapeCast_apply b _ i _ ?_
  rewrite [Shape.rowMajor_val_one, Shape.rowMajor_val_two]
  have h0 : (i 0).val < 1 := (i 0).isLt
  show (i 1).val = (i 0).val * 2 + (i 1).val
  omega

/-! ## Region by region, from the arguments up -/

/-- After the first region: x·W1. -/
theorem W4_lin1 (c : Dev nD) : W4 m ρ c (Proc.devRef .tc main_v30) = Cert.Spec.dot1 (m ((c : Thread nD τ).loc main_arg0)) (m ((c : Thread nD τ).loc main_arg2)) := by
  refine (W4_arr m ρ c 2).trans ?_
  rw [Region0.value (V3 m ρ) c]
  show Cert.Spec.dot1 (W3 m ρ c (Proc.devRef .tc main_arg0)) (W3 m ρ c (Proc.devRef .tc main_arg2)) = _
  rw [W3_arg0, W3_arg2]

/-- After the stretch: the first aggregation of it. -/
theorem W5_agg1 (c : Dev nD) :
    W5 m ρ c (Proc.devRef .tc main_v43) = Cert.Spec.agg128 (m ((c : Thread nD τ).loc main_arg1)) (Cert.Spec.dot1 (m ((c : Thread nD τ).loc main_arg0)) (m ((c : Thread nD τ).loc main_arg2))) := by
  have e : W5 m ρ c (Proc.devRef .tc main_v43) = Cert.Spec.agg128P (W4 m ρ c (Proc.devRef .tc main_v3)) (W4 m ρ c (Proc.devRef .tc main_v6))
      (W4 m ρ c (Proc.devRef .tc main_v29)) (W4 m ρ c (Proc.devRef .tc main_v30)) := by
    simp only [W5, hostOps1]
    after_results_simp
    rfl
  rw [e, W4_src, W4_dst, W4_nrm, W4_lin1, ← Cert.Spec.agg128_eq]

/-- … and the first bias as a row. -/
theorem W5_row1 (c : Dev nD) : W5 m ρ c (Proc.devRef .tc main_v44) = val_main_v44 (F := Ideal) (m ((c : Thread nD τ).loc main_arg3)) := by
  have e : W5 m ρ c (Proc.devRef .tc main_v44) = shapeCast S1x128 (W4 m ρ c (Proc.devRef .tc main_arg3)) shapeCasts_S128_S1x128 := by
    simp only [W5, hostOps1]
    after_results_simp
    rfl
  rw [e, W4_arg3]
  exact row128_eq _

/-- After the second region: the hidden layer. -/
theorem W6_act (c : Dev nD) : W6 m ρ c (Proc.devRef .tc main_v45)
    = Cert.Spec.biasReluRow (Cert.Spec.agg128 (m ((c : Thread nD τ).loc main_arg1)) (Cert.Spec.dot1 (m ((c : Thread nD τ).loc main_arg0)) (m ((c : Thread nD τ).loc main_arg2)))) (val_main_v44 (F := Ideal) (m ((c : Thread nD τ).loc main_arg3))) := by
  refine (W6_arr m ρ c 2).trans ?_
  rw [Region1.value (V5 m ρ) c]
  show Cert.Spec.biasReluRow (W5 m ρ c (Proc.devRef .tc main_v43)) (W5 m ρ c (Proc.devRef .tc main_v44)) = _
  rw [W5_agg1, W5_row1]

/-- After the third region: the hidden layer times W2. -/
theorem W7_lin2 (c : Dev nD) : W7 m ρ c (Proc.devRef .tc main_v46)
    = Cert.Spec.dot2 (Cert.Spec.biasReluRow (Cert.Spec.agg128 (m ((c : Thread nD τ).loc main_arg1)) (Cert.Spec.dot1 (m ((c : Thread nD τ).loc main_arg0)) (m ((c : Thread nD τ).loc main_arg2)))) (val_main_v44 (F := Ideal) (m ((c : Thread nD τ).loc main_arg3)))) (m ((c : Thread nD τ).loc main_arg4)) := by
  refine (W7_arr m ρ c 2).trans ?_
  rw [Region2.value (V6 m ρ) c]
  show Cert.Spec.dot2 (W6 m ρ c (Proc.devRef .tc main_v45)) (W6 m ρ c (Proc.devRef .tc main_arg4)) = _
  rw [W6_act, W6_arg4]

/-- After the last stretch: the second aggregation. -/
theorem W8_agg2 (c : Dev nD) : W8 m ρ c (Proc.devRef .tc main_v59) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) := by
  have e : W8 m ρ c (Proc.devRef .tc main_v59) = Cert.Spec.agg2P (W7 m ρ c (Proc.devRef .tc main_v3)) (W7 m ρ c (Proc.devRef .tc main_v6))
      (W7 m ρ c (Proc.devRef .tc main_v29)) (W7 m ρ c (Proc.devRef .tc main_v46)) := by
    simp only [W8, hostOps3]
    after_results_simp
    rfl
  rw [e, W7_src, W7_dst, W7_nrm, W7_lin2, ← Cert.Spec.agg2_eq]
  rfl

/-- … and the second bias as a row. -/
theorem W8_row2 (c : Dev nD) : W8 m ρ c (Proc.devRef .tc main_v60) = val_main_v62 (F := Ideal) (m ((c : Thread nD τ).loc main_arg5)) := by
  have e : W8 m ρ c (Proc.devRef .tc main_v60) = shapeCast S1x2 (W7 m ρ c (Proc.devRef .tc main_arg5)) shapeCasts_S2_S1x2 := by
    simp only [W8, hostOps3]
    after_results_simp
    rfl
  rw [e, W7_arg5]
  exact row2_eq _

/-- THE RESULT BUFFER at the last boundary is kerOut of the six arguments. -/
theorem result_eq (c : Dev nD) : W9 m ρ c (Proc.devRef .tc main_v61)
    = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Region3.value (V8 m ρ) c]
  show Cert.Spec.lsmK (W8 m ρ c (Proc.devRef .tc main_v59)) (W8 m ρ c (Proc.devRef .tc main_v60)) = _
  rw [W8_agg2, W8_row2]
  rfl

end Cert.KernelIdeal.Chain

end
-- ==== Proof.LibFiniteSums.lean ====
import Mathlib.Data.EReal.Basic
import Mathlib.Data.EReal.Operations
import Mathlib.Data.EReal.Inv
import Mathlib.Analysis.Real.Sqrt
import Mathlib.Algebra.BigOperators.Group.Finset.Basic
import Mathlib.Algebra.BigOperators.Group.Finset.Piecewise
import Mathlib.Algebra.Order.BigOperators.Group.Finset
import Mathlib.Data.Fintype.BigOperators
import Mathlib.Logic.Equiv.Fin.Basic
import Idealize.ShloMosaic.PureOps.Ideal
import Idealize.ShloMosaic.PureOps.Ideal.Laws
import Idealize.ShloMosaic.Lib.ValueIdx

/-!
# Finite sums of finite extended reals

The extended reals are not a ring: a product does not distribute over a sum once an infinity is among the
terms. Where every term is a real number the usual laws hold. This file names that side condition
(`IsReal`), shows it closed under the field operations met in a normalised graph convolution (sum,
difference, product, maximum, finite sums, division by a positive real, inverse square root of a positive
real), and proves the regrouping laws of finite sums under it. It also splits a sum over a range of rows
into the sums over its tiles, turns a mask-weighted sum into a sum over the masked set, evaluates the few
single-precision words such a program spells, and reads a small index word as its signed value.
-/

noncomputable section

namespace Cert.LibFinite

open Idealize.ShloMosaic

/-! ### Real-valued extended reals -/

/-- An extended real is real when it is neither of the two infinities. -/
def IsReal (a : EReal) : Prop := a ≠ ⊤ ∧ a ≠ ⊥

/-- The cast of a real number is real. -/
theorem isReal_coe (r : ℝ) : IsReal (r : EReal) := ⟨EReal.coe_ne_top r, EReal.coe_ne_bot r⟩

/-- Zero is real. -/
theorem isReal_zero : IsReal (0 : EReal) := isReal_coe 0

/-- One is real. -/
theorem isReal_one : IsReal (1 : EReal) := isReal_coe 1

/-- A real extended real is the cast of some real number. -/
theorem IsReal.exists_coe {a : EReal} (ha : IsReal a) : ∃ r : ℝ, a = (r : EReal) :=
  ⟨a.toReal, (EReal.coe_toReal ha.1 ha.2).symm⟩

/-- The sum of two reals is real. -/
theorem IsReal.add {a b : EReal} (ha : IsReal a) (hb : IsReal b) : IsReal (a + b) := by
  obtain ⟨x, rfl⟩ := ha.exists_coe
  obtain ⟨y, rfl⟩ := hb.exists_coe
  rw [← EReal.coe_add]; exact isReal_coe _

/-- The difference of two reals is real. -/
theorem IsReal.sub {a b : EReal} (ha : IsReal a) (hb : IsReal b) : IsReal (a - b) := by
  obtain ⟨x, rfl⟩ := ha.exists_coe
  obtain ⟨y, rfl⟩ := hb.exists_coe
  rw [← EReal.coe_sub]; exact isReal_coe _

/-- The product of two reals is real. -/
theorem IsReal.mul {a b : EReal} (ha : IsReal a) (hb : IsReal b) : IsReal (a * b) := by
  obtain ⟨x, rfl⟩ := ha.exists_coe
  obtain ⟨y, rfl⟩ := hb.exists_coe
  rw [← EReal.coe_mul]; exact isReal_coe _

/-- The negative of a real is real. -/
theorem IsReal.neg {a : EReal} (ha : IsReal a) : IsReal (-a) := by
  obtain ⟨x, rfl⟩ := ha.exists_coe
  rw [← EReal.coe_neg]; exact isReal_coe _

/-- The larger of two reals is one of them, hence real. -/
theorem IsReal.max {a b : EReal} (ha : IsReal a) (hb : IsReal b) : IsReal (max a b) := by
  rcases max_choice a b with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The cast of a finite sum of real numbers is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### The ring laws among reals -/

/-- Adding zero on the left changes nothing. -/
theorem zero_add_ereal (a : EReal) : 0 + a = a := zero_add a

/-- A product with zero on the right is zero, at the infinities too. -/
theorem mul_zero_ereal (a : EReal) : a * 0 = 0 := mul_zero a

/-- Adding zero in front of a finite sum changes nothing. -/
theorem zero_add_sum {ι : Type*} (s : Finset ι) (f : ι → EReal) : 0 + ∑ i ∈ s, f i = ∑ i ∈ s, f i :=
  zero_add _

/-- A real minus itself is zero (false at the infinities, where the difference is an infinity). -/
theorem sub_self_of_isReal (a : EReal) (ha : IsReal a) : a - a = 0 := by
  obtain ⟨x, rfl⟩ := ha.exists_coe
  rw [← EReal.coe_sub, sub_self, EReal.coe_zero]

/-- Among reals a product distributes over a sum of two. -/
theorem mul_add_of_isReal (a : EReal) (ha : IsReal a) (b c : EReal) (hb : IsReal b) (hc : IsReal c) :
    a * (b + c) = a * b + a * c := by
  obtain ⟨x, rfl⟩ := ha.exists_coe
  obtain ⟨y, rfl⟩ := hb.exists_coe
  obtain ⟨z, rfl⟩ := hc.exists_coe
  rw [← EReal.coe_add, ← EReal.coe_mul, ← EReal.coe_mul, ← EReal.coe_mul, ← EReal.coe_add, mul_add]

/-- Among reals a product distributes over a finite sum. -/
theorem mul_sum_of_isReal (a : EReal) (ha : IsReal a) {ι : Type*} (s : Finset ι) (f : ι → EReal)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb, ← ih hs]
    exact mul_add_of_isReal a ha _ _ (hf b (Finset.mem_insert_self b s)) (isReal_sum s f hs)

/-- A row's inverse-root degree `dn`, applied to the sum of the row's incoming messages `A e * dv e`, may be
    taken inside the sum and attached to each message's own inverse-root degree `dv e`. -/
theorem agg_regroup (dn : EReal) (hdn : IsReal dn) {ι : Type*} (s : Finset ι) (A dv : ι → EReal)
    (hA : ∀ e ∈ s, IsReal (A e)) (hd : ∀ e ∈ s, IsReal (dv e)) :
    dn * (0 + ∑ e ∈ s, A e * dv e) = 0 + ∑ e ∈ s, A e * (dv e * dn) := by
  rw [zero_add, zero_add, mul_sum_of_isReal dn hdn s _ fun e he => (hA e he).mul (hd e he)]
  refine Finset.sum_congr rfl fun e _ => ?_
  rw [mul_left_comm, mul_comm dn]

/-! ### Inverse square root, quotient by a positive real, squares, counts -/

/-- The inverse square root of a positive real is a positive real. -/
theorem isReal_rsqrt (a : EReal) (ha : IsReal a) (hpos : 0 < a) :
    IsReal (Ideal.rsqrt a) ∧ 0 < Ideal.rsqrt a := by
  obtain ⟨x, rfl⟩ := ha.exists_coe
  have hx : 0 < x := EReal.coe_pos.mp hpos
  rw [Ideal.rsqrt_coe, if_neg (not_lt.mpr hx.le), if_neg hx.ne']
  exact ⟨isReal_coe _, EReal.coe_pos.mpr (inv_pos.mpr (Real.sqrt_pos.mpr hx))⟩

/-- A real divided by a positive real is real, and nonnegative when the numerator is. Both the host's
    quotient and the kernel's are this quotient. -/
theorem isReal_div_pos (a : EReal) (ha : IsReal a) (r : ℝ) (hr : 0 < r) :
    IsReal (Ideal.div a (r : EReal)) ∧ (0 ≤ a → 0 ≤ Ideal.div a (r : EReal)) := by
  obtain ⟨x, rfl⟩ := ha.exists_coe
  rw [Ideal.div_coe hr.ne', ← EReal.coe_mul]
  refine ⟨isReal_coe _, fun h => ?_⟩
  have hx : 0 ≤ x := EReal.coe_nonneg.mp h
  exact EReal.coe_nonneg.mpr (mul_nonneg hx (by positivity))

/-- A finite sum of squares of reals is nonnegative. -/
theorem sum_sq_nonneg {ι : Type*} (s : Finset ι) (f : ι → EReal) (hf : ∀ i ∈ s, IsReal (f i)) :
    0 ≤ ∑ i ∈ s, f i * f i := by
  refine Finset.sum_nonneg fun i hi => ?_
  obtain ⟨x, hx⟩ := (hf i hi).exists_coe
  rw [hx, ← EReal.coe_mul]
  exact EReal.coe_nonneg.mpr (mul_self_nonneg x)

/-- Counting a nonempty finite set by adding a one per member gives a real number, at least one. -/
theorem count_pos {ι : Type*} (s : Finset ι) (hs : s.Nonempty) :
    IsReal (0 + ∑ _e ∈ s, (1 : EReal)) ∧ 1 ≤ 0 + ∑ _e ∈ s, (1 : EReal) := by
  have h1 : (∑ _e ∈ s, (1 : EReal)) = ((s.card : ℝ) : EReal) := by
    rw [Finset.sum_const, nsmul_one, ← EReal.coe_coe_eq_natCast]
  have hc : (1 : ℝ) ≤ (s.card : ℝ) := by exact_mod_cast Finset.card_pos.mpr hs
  rw [zero_add, h1]
  exact ⟨isReal_coe _, by rw [← EReal.coe_one]; exact EReal.coe_le_coe_iff.mpr hc⟩

/-! ### A sum over rows, tile by tile -/

/-- Three mixed-radix digits `s < a`, `j < b`, `r < c` name a number below `a * b * c`. -/
theorem digits_lt {a b c : ℕ} (s : Fin a) (j : Fin b) (r : Fin c) :
    (s.val * b + j.val) * c + r.val < a * b * c := by
  have h1 : s.val * b + j.val + 1 ≤ a * b :=
    calc s.val * b + j.val + 1 ≤ s.val * b + b := Nat.add_le_add_left j.isLt _
      _ = (s.val + 1) * b := (Nat.succ_mul _ _).symm
      _ ≤ a * b := Nat.mul_le_mul_right b s.isLt
  calc (s.val * b + j.val) * c + r.val < (s.val * b + j.val) * c + c := Nat.add_lt_add_left r.isLt _
    _ = (s.val * b + j.val + 1) * c := (Nat.succ_mul _ _).symm
    _ ≤ a * b * c := Nat.mul_le_mul_right c h1

/-- A sum over `a * b * c` consecutive indices is the triple sum over the three mixed-radix digits of
    the index: the outer digit below `a`, the middle below `b`, the inner below `c`. -/
theorem sum_fin_mul_mul {M : Type*} [AddCommMonoid M] (a b c : ℕ) (f : Fin (a * b * c) → M) :
    ∑ n, f n = ∑ s : Fin a, ∑ j : Fin b, ∑ r : Fin c, f ⟨(s.val * b + j.val) * c + r.val, digits_lt s j r⟩ :=
  calc ∑ n, f n
      = ∑ p : Fin (a * b) × Fin c, f (finProdFinEquiv p) := (Equiv.sum_comp finProdFinEquiv f).symm
    _ = ∑ p : Fin (a * b), ∑ r : Fin c, f (finProdFinEquiv (p, r)) := Fintype.sum_prod_type _
    _ = ∑ q : Fin a × Fin b, ∑ r : Fin c, f (finProdFinEquiv (finProdFinEquiv q, r)) :=
        (Equiv.sum_comp finProdFinEquiv fun p : Fin (a * b) => ∑ r : Fin c, f (finProdFinEquiv (p, r))).symm
    _ = ∑ s : Fin a, ∑ j : Fin b, ∑ r : Fin c, f (finProdFinEquiv (finProdFinEquiv (s, j), r)) :=
        Fintype.sum_prod_type _
    _ = _ := by
        refine Finset.sum_congr rfl fun s _ => Finset.sum_congr rfl fun j _ => Finset.sum_congr rfl fun r _ => ?_
        congr 1
        apply Fin.ext
        simp only [finProdFinEquiv_apply_val]
        ring

/-- A sum over 100000 rows, taken as 2 slices of 10 blocks of 5000 rows. -/
theorem sum_rows_tiled {M : Type*} [AddCommMonoid M] (f : Fin 100000 → M) :
    ∑ n, f n = ∑ s : Fin 2, ∑ j : Fin 10, ∑ r : Fin 5000,
      f ⟨(s.val * 10 + j.val) * 5000 + r.val, by omega⟩ :=
  sum_fin_mul_mul 2 10 5000 f

/-- A sum over 100000 rows, taken as 2 slices of 50 blocks of 1000 rows. -/
theorem sum_rows_tiled_pool {M : Type*} [AddCommMonoid M] (f : Fin 100000 → M) :
    ∑ n, f n = ∑ s : Fin 2, ∑ j : Fin 50, ∑ r : Fin 1000,
      f ⟨(s.val * 50 + j.val) * 1000 + r.val, by omega⟩ :=
  sum_fin_mul_mul 2 50 1000 f

/-! ### A mask-weighted sum -/

/-- Weighting each term by the 0/1 indicator of a predicate and summing over everything is summing over
    the members that satisfy the predicate. -/
theorem sum_mask_eq_sum_filter {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  split_ifs <;> simp

/-! ### The single-precision words, as the extended reals they denote -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-- The word of the epsilon added under the square root denotes the dyadic `10995116 · 2⁻⁴⁰`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The word of the epsilon added under the square root denotes a positive real. -/
theorem ofBits_eps :
    0 < Ideal.ofBits .f32 0x3727C5AC#32 ∧ IsReal (Ideal.ofBits .f32 0x3727C5AC#32) := by
  rw [ofBits_eps_eq]
  exact ⟨EReal.coe_pos.mpr (by positivity), isReal_coe _⟩

/-! ### A small index word and its signed value -/

/-- A 32-bit word equals the word of a number below 1024 exactly when its signed value is that number. -/
theorem toInt_ofNat_eq_iff (b : BitVec 32) (g : Nat) (hg : g < 1024) :
    b = BitVec.ofNat 32 g ↔ b.toInt = (g : ℤ) := by
  have hv : (BitVec.ofNat 32 g).toInt = (g : ℤ) := by
    rw [BitVec.toInt_eq_msb_cond,
      BitVec.msb_eq_false_iff_two_mul_lt.mpr (by simp [BitVec.toNat_ofNat]; omega)]
    simp [BitVec.toNat_ofNat]; omega
  exact ⟨fun h => h ▸ hv, fun h => BitVec.eq_of_toInt_eq (h.trans hv.symm)⟩

end Cert.LibFinite

end
-- ==== Proof.LibRealOps.lean ====
import proofs.«126349_j90134183674022_1_alg».proof.Proof.LibFiniteSums
import Idealize.ShloMosaic.PureOps.Contract
import Idealize.ShloMosaic.PureOps.Vector
import Idealize.ShloMosaic.PureOps.ShapeOps
import Idealize.ShloMosaic.PureOps.Ideal
import Idealize.ShloMosaic.PureOps.Ideal.Laws

/-!
# Array operations that keep the reals

At the extended reals an array all of whose entries are real numbers (neither infinity) stays so under the
operations of a normalised graph convolution. One lemma per kind of operation, each over arbitrary shapes and
dimension records, each stated on whole arrays so that they compose by application:

* a gather and a broadcast only re-read entries of their operand;
* a scatter-add gives the operand's entry plus a finite sum of entries of the updates;
* a dot_general gives a finite sum of products of entries;
* a pointwise product, sum or maximum of two real arrays is real; the constants 0 and 1 are real;
* the select of 1/√d where d > 0, of a real array elsewhere, is real when d is.
-/

noncomputable section

namespace Cert.LibRealOps

open Idealize.ShloMosaic Cert.LibFinite

variable {φ : FTy}

/-- A gather only picks entries of its operand, whatever the dimension numbers and the indices. -/
theorem isReal_gather {s si t : Shape} {w : Nat} (d : GatherDims s si t) (x : FVec Ideal s φ) (idx : IVec si w)
    (hx : ∀ k, IsReal (x k)) : ∀ j, IsReal (Host.gather d x idx j) := by
  intro j
  unfold Host.gather
  exact hx _

/-- A broadcast only re-reads entries of its operand. -/
theorem isReal_broadcastInDim {s : Shape} (t : Shape) (dims : Fin s.rank → Fin t.rank) (h : s.BroadcastsInDim t dims)
    (x : FVec Ideal s φ) (hx : ∀ k, IsReal (x k)) : ∀ j, IsReal (broadcastInDim t dims h x j) := by
  intro j
  unfold broadcastInDim
  exact hx _

/-- A scatter-add of real updates into a real operand is real: each entry is the operand's plus a finite sum of
    updates. -/
theorem isReal_scatterAdd {s si u : Shape} {w : Nat} (d : ScatterDims s si u) (x : FVec Ideal s φ) (idx : IVec si w)
    (upd : FVec Ideal u φ) (hx : ∀ i, IsReal (x i)) (hu : ∀ j, IsReal (upd j)) :
    ∀ i, IsReal (Host.scatterAdd (F := Ideal) d x idx upd i) := by
  intro i
  unfold Host.scatterAdd
  rw [Ideal.hostScatterAdd_def]
  unfold Ideal.hostScatterAdd
  exact (hx i).add (isReal_sum _ _ fun j _ => hu j)

/-- A dot_general of two real arrays is real: each entry is a finite sum of products. -/
theorem isReal_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral (F := Ideal) d prec lhs rhs j) := by
  intro j
  simp only [Host.dotGeneral]
  rw [Ideal.dotGeneral_apply]
  exact isReal_sum _ _ fun k _ => (hl _).mul (hr _)

/-- The pointwise product of two real arrays is real. -/
theorem isReal_mulf {s : Shape} (x y : FVec Ideal s φ) (hx : ∀ i, IsReal (x i)) (hy : ∀ i, IsReal (y i)) :
    ∀ i, IsReal (mulf x y i) := fun i => (hx i).mul (hy i)

/-- The pointwise sum of two real arrays is real. -/
theorem isReal_addf {s : Shape} (x y : FVec Ideal s φ) (hx : ∀ i, IsReal (x i)) (hy : ∀ i, IsReal (y i)) :
    ∀ i, IsReal (addf x y i) := fun i => (hx i).add (hy i)

/-- The pointwise maximum of two real arrays is real. -/
theorem isReal_maximumf {s : Shape} (x y : FVec Ideal s φ) (hx : ∀ i, IsReal (x i)) (hy : ∀ i, IsReal (y i)) :
    ∀ i, IsReal (maximumf x y i) := fun i => (hx i).max (hy i)

/-- The constant array of the single-precision word of +0.0 is real. -/
theorem isReal_constant_zero (s : Shape) : ∀ i, IsReal (constant (F := Ideal) s .f32 0x00000000#32 i) := by
  intro i
  show IsReal (Ideal.ofBits .f32 0x00000000#32)
  rw [ofBits_zero]; exact isReal_zero

/-- The constant array of the single-precision word of 1.0 is real. -/
theorem isReal_constant_one (s : Shape) : ∀ i, IsReal (constant (F := Ideal) s .f32 0x3F800000#32 i) := by
  intro i
  show IsReal (Ideal.ofBits .f32 0x3F800000#32)
  rw [ofBits_one]; exact isReal_one

/-- The inverse-root degree: 1/√d where d exceeds the entry of an all-zero array, an entry of a real array elsewhere.
    It is real when d is: in the first branch d is a positive real. -/
theorem isReal_select_rsqrt {s : Shape} (deg zero alt : FVec Ideal s φ) (hdeg : ∀ i, IsReal (deg i))
    (hzero : ∀ i, zero i = 0) (halt : ∀ i, IsReal (alt i)) :
    ∀ i, IsReal (select (cmpf (F := Ideal) .ogt deg zero) (Host.rsqrt deg) alt i) := by
  intro i
  show IsReal (Scalar.select (Ideal.cmp .ogt (deg i) (zero i)) (Ideal.rsqrt (deg i)) (alt i))
  unfold Scalar.select
  split_ifs with h
  · have hpos : 0 < deg i := by
      rw [hzero i] at h
      by_contra hn
      simp [Ideal.cmp, hn] at h
    exact (isReal_rsqrt _ (hdeg i) hpos).1
  · exact halt i

end Cert.LibRealOps

end
-- ==== Proof.Finite.lean ====
import proofs.«126349_j90134183674022_1_alg».proof.Proof.Spec
import proofs.«126349_j90134183674022_1_alg».proof.Proof.LibFiniteSums
import proofs.«126349_j90134183674022_1_alg».proof.Proof.LibRealOps

noncomputable section

namespace Cert.Spec

open Idealize.ShloMosaic Idealize.ShloMosaic.ValueIdx Cert.ReferenceIdeal Cert.ReferenceIdeal.Gen Cert.LibFinite Cert.ReferenceIdeal.ReadP
  Cert.LibRealOps

/-- The degree of every node, ones added into zeros along the edges' targets, is real. -/
theorem deg_isReal (ei : (⟨S2x800000, .i32⟩ : BufTy).Contents (Elt Ideal)) : ∀ i, IsReal (val_main_v10 (F := Ideal) ei i) := by
  unfold val_main_v10
  refine isReal_scatterAdd _ _ _ _ ?_ ?_
  · unfold val_main_v8 val_main_cst_0
    exact isReal_broadcastInDim (φ := .f32) _ _ _ _ (isReal_constant_zero _)
  · unfold val_main_v7 val_main_cst
    exact isReal_broadcastInDim (φ := .f32) _ _ _ _ (isReal_constant_one _)

/-- The inverse-root degree, 1/√deg where deg > 0 and 0 elsewhere, is real. -/
theorem dinv_isReal (ei : (⟨S2x800000, .i32⟩ : BufTy).Contents (Elt Ideal)) : ∀ i, IsReal (val_main_v14 (F := Ideal) ei i) := by
  unfold val_main_v14 val_main_v12 val_main_v13
  refine isReal_select_rsqrt _ _ _ (deg_isReal ei) ?_ ?_
  · intro i
    unfold val_main_v11 val_main_cst_1 broadcastInDim
    show Ideal.ofBits .f32 0x00000000#32 = 0
    exact ofBits_zero
  · unfold val_main_call0_v1 val_main_call0_v0 val_main_cst_2
    exact isReal_broadcastInDim (φ := .f32) _ _ _ _ (isReal_constant_zero _)

/-- The norm of every edge, the product of the inverse-root degrees of its two ends, is real. -/
theorem norm_isReal (ei : (⟨S2x800000, .i32⟩ : BufTy).Contents (Elt Ideal)) : ∀ i, IsReal (val_main_v29 (F := Ideal) ei i) := by
  unfold val_main_v29 val_main_v21 val_main_v28
  exact isReal_mulf _ _ (isReal_gather (φ := .f32) _ _ _ (dinv_isReal ei)) (isReal_gather (φ := .f32) _ _ _ (dinv_isReal ei))

/-- The aggregate over 128 columns of a real array is real. -/
theorem agg128_isReal (ei : (⟨S2x800000, .i32⟩ : BufTy).Contents (Elt Ideal)) (h : FVec Ideal S50000x128 .f32)
    (hh : ∀ i, IsReal (h i)) : ∀ i, IsReal (agg128 ei h i) := by
  unfold agg128
  refine isReal_scatterAdd _ _ _ _ ?_ (isReal_mulf _ _ (isReal_gather (φ := .f32) _ _ _ hh) ?_)
  · unfold val_main_v41 val_main_cst_8
    exact isReal_broadcastInDim (φ := .f32) _ _ _ _ (isReal_constant_zero _)
  · unfold val_main_v39 val_main_v38
    exact isReal_broadcastInDim (φ := .f32) _ _ _ _ (isReal_broadcastInDim (φ := .f32) _ _ _ _ (norm_isReal ei))

/-- The aggregate over 2 columns of a real array is real. -/
theorem agg2_isReal (ei : (⟨S2x800000, .i32⟩ : BufTy).Contents (Elt Ideal)) (h : FVec Ideal S50000x2 .f32)
    (hh : ∀ i, IsReal (h i)) : ∀ i, IsReal (agg2 ei h i) := by
  unfold agg2
  refine isReal_scatterAdd _ _ _ _ ?_ (isReal_mulf _ _ (isReal_gather (φ := .f32) _ _ _ hh) ?_)
  · unfold val_main_v59 val_main_cst_11
    exact isReal_broadcastInDim (φ := .f32) _ _ _ _ (isReal_constant_zero _)
  · unfold val_main_v57 val_main_v56
    exact isReal_broadcastInDim (φ := .f32) _ _ _ _ (isReal_broadcastInDim (φ := .f32) _ _ _ _ (norm_isReal ei))

/-- Every entry of the second layer's aggregate is a real number when every entry of x, W1, b1 and W2 is: products,
    finite sums, maxima and 1/√ of a positive count keep the reals, a gather only picks entries, a scatter-add only sums
    them. -/
theorem hidden_isReal (x0 : FVec Ideal S50000x128 .f32) (ei : (⟨S2x800000, .i32⟩ : BufTy).Contents (Elt Ideal)) (x2 : FVec Ideal S128x128 .f32)
    (x3 : FVec Ideal S128 .f32) (x4 : FVec Ideal S128x2 .f32)
    (h0 : ∀ i, IsReal (x0 i)) (h2 : ∀ i, IsReal (x2 i)) (h3 : ∀ i, IsReal (x3 i)) (h4 : ∀ i, IsReal (x4 i)) :
    ∀ i, IsReal (hidden x0 ei x2 x3 x4 i) := by
  unfold hidden
  refine agg2_isReal ei _ ?_
  unfold dot2
  refine isReal_dotGeneral _ _ _ _ ?_ h4
  unfold biasReluRow
  refine isReal_maximumf _ _ (isReal_addf _ _ (agg128_isReal ei _ ?_) ?_) ?_
  · unfold dot1
    exact isReal_dotGeneral _ _ _ _ h0 h2
  · unfold val_main_v44
    exact isReal_broadcastInDim (φ := .f32) _ _ _ _ (isReal_broadcastInDim (φ := .f32) _ _ _ _ h3)
  · exact isReal_broadcastInDim (φ := .f32) _ _ _ _ (isReal_constant_zero _)

/-- The bias row of the last layer is real when the bias is. -/
theorem row2_isReal (x5 : FVec Ideal S2 .f32) (h5 : ∀ i, IsReal (x5 i)) : ∀ i, IsReal (val_main_v62 (F := Ideal) x5 i) := by
  unfold val_main_v62
  exact isReal_broadcastInDim (φ := .f32) _ _ _ _ h5

end Cert.Spec

end
-- ==== Proof.LibLogSumExp.lean ====
import proofs.«126349_j90134183674022_1_alg».proof.Proof.LibFiniteSums
import Mathlib.Data.EReal.Operations
import Mathlib.Analysis.Complex.Exponential
import Idealize.ShloMosaic.PureOps.Ideal
import Idealize.ShloMosaic.PureOps.Ideal.Laws
import Idealize.ShloMosaic.Lib.ValueIdx

/-!
# The log-sum-exp of two reals, and the two groupings of a log-softmax

A row's log-softmax takes off the entry z the row maximum μ and the normaliser L = log (exp (z0 - μ) + exp (z1 - μ)).
At the extended reals the subtraction does not regroup freely: x - (μ + L) and (x - μ) - L may differ once an infinity
is among the terms. Where every entry is a real number μ is real, each exponential is a positive real, their sum is a
positive real and L is real, so the two groupings agree. This file proves that (the scalar law, the finiteness of L, the
two groupings), reads the host's exponential and logarithm at an index, evaluates the single-precision word of -∞, and
folds a maximum over two terms.
-/

noncomputable section

namespace Cert.LibLogSumExp

open Idealize.ShloMosaic Cert.LibFinite

/-! ### The scalar algebra -/

/-- Among reals, taking off a sum is taking off its terms one after the other. -/
theorem sub_add_eq_sub_sub_of_isReal (x u l : EReal) (hx : IsReal x) (hu : IsReal u) (hl : IsReal l) :
    x - (u + l) = (x - u) - l := by
  obtain ⟨a, rfl⟩ := hx.exists_coe
  obtain ⟨b, rfl⟩ := hu.exists_coe
  obtain ⟨c, rfl⟩ := hl.exists_coe
  rw [← EReal.coe_add, ← EReal.coe_sub, ← EReal.coe_sub, ← EReal.coe_sub, sub_add_eq_sub_sub]

/-- The logarithm of a sum of two exponentials of reals is real: each exponential is a positive real. -/
theorem isReal_log_exp_add {s t : EReal} (hs : IsReal s) (ht : IsReal t) :
    IsReal (Ideal.log (Ideal.exp s + Ideal.exp t)) := by
  obtain ⟨a, rfl⟩ := hs.exists_coe
  obtain ⟨b, rfl⟩ := ht.exists_coe
  rw [Ideal.exp_coe, Ideal.exp_coe, ← EReal.coe_add, Ideal.log_coe,
    if_neg (not_le.mpr (add_pos (Real.exp_pos a) (Real.exp_pos b)))]
  exact isReal_coe _

/-- The two groupings of a two-entry row's log-softmax agree at real entries: with μ = max z0 z1 and
    L = log (exp (z0 - μ) + exp (z1 - μ)), x - (μ + L) = (x - μ) - L. -/
theorem lsm_scalar (x z0 z1 : EReal) (hx : IsReal x) (h0 : IsReal z0) (h1 : IsReal z1) :
    x - (max z0 z1 + Ideal.log (Ideal.exp (z0 - max z0 z1) + Ideal.exp (z1 - max z0 z1)))
      = (x - max z0 z1) - Ideal.log (Ideal.exp (z0 - max z0 z1) + Ideal.exp (z1 - max z0 z1)) :=
  sub_add_eq_sub_sub_of_isReal x _ _ hx (h0.max h1) (isReal_log_exp_add (h0.sub (h0.max h1)) (h1.sub (h0.max h1)))

/-! ### Words, folds, and the host's unary operations at an index -/

/-- The single-precision word of -∞ denotes the bottom of the extended reals. -/
theorem ofBits_neg_inf : Ideal.ofBits .f32 0xFF800000#32 = ⊥ := by simp [Ideal.ofBits, Ideal.ieee]

/-- A fold of max over two terms from b is b joined to the larger of the two. -/
theorem fold_max_fin2 (b : EReal) (g : Fin 2 → EReal) :
    (Finset.univ : Finset (Fin 2)).fold max b g = max b (max (g 0) (g 1)) := by
  simp only [Fin.univ_succ, Finset.fold_cons, Finset.fold_map, Finset.univ_unique, Finset.fold_singleton]
  show max (g 0) (max (g 1) b) = _
  ac_rfl

/-- The host's exponential at an index is the exponential of the element. -/
theorem hostExp_apply {s : Shape} {φ : FTy} (x : FVec Ideal s φ) (i : s.Idx) : Host.exp x i = Ideal.exp (x i) := rfl

/-- The host's logarithm at an index is the logarithm of the element. -/
theorem hostLog_apply {s : Shape} {φ : FTy} (x : FVec Ideal s φ) (i : s.Idx) : Host.log x i = Ideal.log (x i) := rfl

end Cert.LibLogSumExp

end
-- ==== Proof.LogSoftmax.lean ====
import proofs.«126349_j90134183674022_1_alg».proof.Proof.Spec
import proofs.«126349_j90134183674022_1_alg».proof.Proof.LibFiniteSums
import proofs.«126349_j90134183674022_1_alg».proof.Proof.LibLogSumExp
import Idealize.ShloMosaic.Lib.Pipeline.Value
import Idealize.ShloMosaic.Lib.ValueLayout
import Idealize.ShloMosaic.PureOps.Ideal.Laws

noncomputable section

namespace Cert.Spec

open Idealize.ShloMosaic Idealize.ShloMosaic.ValueIdx Cert.ReferenceIdeal Cert.ReferenceIdeal.Gen Cert.LibFinite Cert.LibLogSumExp

/-! ### The reference's log-softmax read at an index -/

/-- Row p with the column k put back is the index (p, k). -/
theorem lift_ix1 (h : S50000x2.Reduces [(1 : Fin 2)] S50000) (p : Fin 50000) (k : Fin 2) :
    h.lift (ix1 p) k = ix2 p k :=
  funext fun a => Fin.ext (by match a with | ⟨0, _⟩ => rfl | ⟨1, _⟩ => rfl)

/-- The maximum over the two columns of row p, taken from -∞, is the larger of the two entries. -/
theorem reduceMax_apply (z : FVec Ideal S50000x2 .f32) (p : Fin 50000) :
    Host.reduce FloatOps.maximumf z (constant S_ .f32 0xFF800000#32) reducesTo_S50000x2_S50000_d1 h_S_ (ix1 p)
      = max (z (ix2 p 0)) (z (ix2 p 1)) := by
  rw [Host.reduce_eq_fold_single FloatOps.maximumf z _ reducesTo_S50000x2_S50000_d1 (by decide) h_S_]
  refine (fold_max_fin2 _ _).trans ?_
  rw [constant_apply, ofBits_neg_inf, bot_sup_eq]
  exact congrArg₂ max (congrArg z (lift_ix1 _ p 0)) (congrArg z (lift_ix1 _ p 1))

/-- A [50000] array laid over a unit second axis and then over the two columns, read at (p, q), is the array at p. -/
theorem bcastCols_apply (y : FVec Ideal S50000 .f32) (p : Fin 50000) (q : Fin 2) :
    broadcastInDim S50000x2 ![0, 1] bcast_S50000x1_S50000x2_0_1 (broadcastInDim S50000x1 ![0] bcast_S50000_S50000x1_0 y)
      (ix2 p q) = y (ix1 p) := by
  refine (broadcastInDim_apply _ bcast_S50000x1_S50000x2_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact broadcastInDim_apply _ bcast_S50000_S50000x1_0 y (ix2 p (0 : Fin 1)) (ix1 p) (fun a => match a with
    | ⟨0, _⟩ => by show p.val = if (50000 : Nat) = 1 then 0 else p.val; rw [if_neg (by decide)])

/-- The row maxima laid back over the columns, read at (p, q): the larger of row p's two entries. -/
theorem rowMaxB_apply (z : FVec Ideal S50000x2 .f32) (p : Fin 50000) (q : Fin 2) :
    rowMaxB z (ix2 p q) = max (z (ix2 p 0)) (z (ix2 p 1)) := by
  unfold rowMaxB
  rw [bcastCols_apply]
  show max (Ideal.ofBits .f32 0xFF800000#32) (Host.reduce FloatOps.maximumf z (constant S_ .f32 0xFF800000#32)
    reducesTo_S50000x2_S50000_d1 h_S_ (ix1 p)) = _
  rw [ofBits_neg_inf, bot_sup_eq, reduceMax_apply]

/-- The sum over the two columns of row p, taken from 0, is the sum of the two entries. -/
theorem reduceAdd_apply (y : FVec Ideal S50000x2 .f32) (p : Fin 50000) :
    Host.reduceAdd y (constant S_ .f32 0x00000000#32) reducesTo_S50000x2_S50000_d1 h_S_ (ix1 p)
      = y (ix2 p 0) + y (ix2 p 1) := by
  simp only [Host.reduceAdd, Ideal.hostReduceAdd_def]
  rw [Ideal.hostReduceAdd_single reducesTo_S50000x2_S50000_d1 (by decide)]
  refine (congrArg (_ + ·) (Fin.sum_univ_two _)).trans ?_
  rw [constant_apply, Ideal.ofBits_zero_f32, zero_add]
  exact congrArg₂ (· + ·) (congrArg y (lift_ix1 _ p 0)) (congrArg y (lift_ix1 _ p 1))

/-- The logarithm of the row sums laid back over the columns, read at (p, q): the logarithm of the sum of row p's two
    entries. -/
theorem logSumB_apply (y : FVec Ideal S50000x2 .f32) (p : Fin 50000) (q : Fin 2) :
    broadcastInDim S50000x2 ![0, 1] bcast_S50000x1_S50000x2_0_1 (Host.log (broadcastInDim S50000x1 ![0] bcast_S50000_S50000x1_0
      (Host.reduceAdd y (constant S_ .f32 0x00000000#32) reducesTo_S50000x2_S50000_d1 h_S_))) (ix2 p q)
      = Ideal.log (y (ix2 p 0) + y (ix2 p 1)) := by
  refine (broadcastInDim_apply _ bcast_S50000x1_S50000x2_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  rw [hostLog_apply, broadcastInDim_apply _ bcast_S50000_S50000x1_0 _ (ix2 p (0 : Fin 1)) (ix1 p) (fun a => match a with
    | ⟨0, _⟩ => by show p.val = if (50000 : Nat) = 1 then 0 else p.val; rw [if_neg (by decide)]), reduceAdd_apply]

/-- The reference's log-softmax read at (p, q): with μ the larger of row p's two entries,
    (z(p,q) - μ) - log (exp (z(p,0) - μ) + exp (z(p,1) - μ)). No finiteness is needed for this reading. -/
theorem lsmRef_apply (z : FVec Ideal S50000x2 .f32) (p : Fin 50000) (q : Fin 2) :
    lsmRef z (ix2 p q) = (z (ix2 p q) - max (z (ix2 p 0)) (z (ix2 p 1)))
      - Ideal.log (Ideal.exp (z (ix2 p 0) - max (z (ix2 p 0)) (z (ix2 p 1)))
          + Ideal.exp (z (ix2 p 1) - max (z (ix2 p 0)) (z (ix2 p 1)))) := by
  unfold lsmRef
  rw [subf_apply, subf_apply, logSumB_apply, hostExp_apply, hostExp_apply, subf_apply, subf_apply,
    rowMaxB_apply, rowMaxB_apply, rowMaxB_apply]

/-! ### The bridge -/

/-- On real entries the two groupings of the log-softmax agree: z - (μ + L) = (z - μ) - L, with μ the row maximum and
    L = log Σ exp(z - μ), all real. -/
theorem lsm_bridge (a : FVec Ideal S50000x2 .f32) (row : FVec Ideal S1x2 .f32)
    (ha : ∀ i, IsReal (a i)) (hr : ∀ i, IsReal (row i)) :
    lsmK a row = lsmRef (addf a (bcastRow2 row)) := by
  funext j
  obtain ⟨p, q, rfl⟩ : ∃ (p : Fin 50000) (q : Fin 2), j = ix2 p q := ⟨j 0, j 1, eq_ix2 j⟩
  have hz : ∀ k : Fin 2, addf a (bcastRow2 row) (ix2 p k) = zAt a row p k := fun k => by
    show a (ix2 p k) + bcastRow2 row (ix2 p k) = _
    unfold bcastRow2 zAt
    refine congrArg (_ + ·) ?_
    exact broadcastInDim_apply _ bcast_S1x2_S50000x2_0_1 row (ix2 p k) (ix2 (0 : Fin 1) k) (fun a => match a with
      | ⟨0, _⟩ => by show 0 = if (1 : Nat) = 1 then 0 else p.val; rw [if_pos rfl]
      | ⟨1, _⟩ => by show k.val = if (2 : Nat) = 1 then 0 else k.val; rw [if_neg (by decide)])
  have hzr : ∀ k : Fin 2, IsReal (zAt a row p k) := fun k => (ha _).add (hr _)
  rw [lsmK_apply, lsmRef_apply, hz q, hz 0, hz 1]
  exact lsm_scalar _ _ _ (hzr q) (hzr 0) (hzr 1)

end Cert.Spec

end
-- ==== Proof.LibAllFinite.lean ====
import proofs.«126349_j90134183674022_1_alg».proof.Proof.LibFiniteSums
import Idealize.ShloMosaic.Lib.ReduceAll

/-!
# A printed "all entries are finite" test, read back

A host program tests that a float array holds no infinity by comparing `|x|` entrywise with a broadcast +∞ and
reducing the comparison bits by `and` over every axis. When that result is 1, every entry of the array is a real
number. The statement is over any shape, any reduced axes and any spelling of the array of +∞.
-/

noncomputable section

namespace Cert.LibAllFinite

open Idealize.ShloMosaic Cert.LibFinite

/-- The single-precision word of +∞ denotes the top of the extended reals. -/
theorem ofBits_inf : Ideal.ofBits .f32 0x7F800000#32 = (⊤ : EReal) := by
  simp [Ideal.ofBits, Ideal.ieee]

/-- An extended real whose absolute value compares below +∞ is a real number. -/
theorem isReal_of_abs_olt_inf (a : Ideal .f32)
    (h : FloatOps.cmpf .olt (FloatOps.hostAbsf a) (FloatOps.ofBits (F := Ideal) .f32 0x7F800000#32) = 1#1) :
    IsReal a := by
  have h' : Ideal.cmp .olt (max (a : EReal) (-(a : EReal))) (Ideal.ofBits .f32 0x7F800000#32) = 1#1 := h
  rw [ofBits_inf] at h'
  unfold Ideal.cmp at h'
  induction a using EReal.rec with
  | bot => simp at h'
  | coe r => exact isReal_coe r
  | top => simp at h'

/-- "All entries pass |x| < +∞" as a host program prints it: the all-reduce by `and` of the comparison of `|x|`
    with an array `c` whose every entry is +∞ came out 1. Then every entry of `x` is a real number. -/
theorem forall_isReal_of_all_abs_olt_inf {s t u : Shape} {axes : List (Fin s.rank)} [Subsingleton t.Idx]
    (x c : FVec Ideal s .f32) (hc : ∀ i, c i = FloatOps.ofBits (F := Ideal) .f32 0x7F800000#32)
    (init : u.Idx → BitVec 1) (h : s.ReducesTo axes t) (hu : 0 < u.numel) (j : t.Idx)
    (e : Host.reduce IntOp.andi (cmpf .olt (Host.absf x) c) init h hu j = 1#1) (i : s.Idx) : IsReal (x i) := by
  have hi := Host.reduce_andi_all _ init h hu j e i
  refine isReal_of_abs_olt_inf (x i) ?_
  rw [← hc i]
  exact hi

end Cert.LibAllFinite

end
-- ==== Proof.PreFinite.lean ====
import proofs.«126349_j90134183674022_1_alg».proof.Proof.Gen.Pre_finite_inputs
import proofs.«126349_j90134183674022_1_alg».proof.Proof.LibFiniteSums
import proofs.«126349_j90134183674022_1_alg».proof.Proof.LibAllFinite
import Idealize.ShloMosaic.Lib.ReduceAll
import Idealize.ShloMosaic.Lib.ValueIdx

noncomputable section

namespace Cert.PreFinite

open Idealize.ShloMosaic Idealize.ShloMosaic.ValueIdx Cert.Pre_finite_inputs Cert.Pre_finite_inputs.Gen Cert.LibFinite
  Cert.LibAllFinite

/-- The scalar shape has one index. -/
instance : Subsingleton S_.Idx := ⟨fun a b => funext fun d => d.elim0⟩

/-- The precondition says every entry of the five float arguments is a real number: each of its five conjuncts is
    "all |entry| < +∞". -/
theorem isReal_of_pre (x0 : FVec Ideal S50000x128 .f32) (x1 : IVec S2x800000 32) (x2 : FVec Ideal S128x128 .f32)
    (x3 : FVec Ideal S128 .f32) (x4 : FVec Ideal S128x2 .f32) (x5 : FVec Ideal S2 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  -- the one entry of the result, with the printed chain in view: ((((t0 ∧ t2) ∧ t3) ∧ t4) ∧ t5) = 1
  have h0 := congrFun h ValueIdx.ix0
  dsimp only [Cert.Pre_finite_inputs.fn, Cert.Pre_finite_inputs.fn_part1, andi] at h0
  obtain ⟨h0123, h5⟩ := IntOp.andi_eq_one.1 h0
  obtain ⟨h012, h4⟩ := IntOp.andi_eq_one.1 h0123
  obtain ⟨h01, h3⟩ := IntOp.andi_eq_one.1 h012
  obtain ⟨h0', h2⟩ := IntOp.andi_eq_one.1 h01
  -- each conjunct is an all-reduce of |x| < +∞ against a broadcast +∞
  exact ⟨forall_isReal_of_all_abs_olt_inf x0 _ (fun _ => rfl) _ _ _ _ h0',
    forall_isReal_of_all_abs_olt_inf x2 _ (fun _ => rfl) _ _ _ _ h2,
    forall_isReal_of_all_abs_olt_inf x3 _ (fun _ => rfl) _ _ _ _ h3,
    forall_isReal_of_all_abs_olt_inf x4 _ (fun _ => rfl) _ _ _ _ h4,
    forall_isReal_of_all_abs_olt_inf x5 _ (fun _ => rfl) _ _ _ _ h5⟩

end Cert.PreFinite

end
-- ==== Proof.lean ====
/-
  A two-layer graph convolution with a log-softmax head, as a Pallas program against its jnp reference, over the
  extended reals.

  Both programs compute  result = log-softmax of the rows of  agg(max(agg(x·W1) + b1, 0)·W2) + b2,  where agg sums, into
  each node, its in-neighbours' rows scaled by the symmetric degree norm (self-loops added). The kernel runs the two
  products, the bias-and-clamp and the bias-and-log-softmax as four pipelined regions of 25 blocks of 2000 rows, and
  leaves the edge arithmetic (gather, scale, scatter-add) to the same host operations the reference uses.

  * Each region's output array is one whole-array function of what its windows find (Region0 … Region3): a product read
    block by block is the whole product, since an entry of x·W depends on one row of x only; the two pointwise regions
    likewise.
  * The contents at each boundary of @main are folded back to the arguments (Chain): the result buffer ends at
    kerOut, the reference's at refOut (its stages name by name), and the two share every step but the last.
  * The last step differs in how it groups a subtraction: z - (μ + L) in the kernel, (z - μ) - L in the reference, with
    μ the row maximum and L = log Σ exp(z - μ). On the extended reals these differ at infinite z, and agree where z is
    real. Under the precondition every float argument is real, and products, finite sums, maxima, the gather's picked
    entries, the scatter's sums and 1/√ of a positive degree keep the reals: z is real.
  * The idealization rewrote nothing, so its ledger is empty.
-/
import proofs.«126349_j90134183674022_1_alg».proof.Defs
import proofs.«126349_j90134183674022_1_alg».proof.Proof.Gen.Kernel
import proofs.«126349_j90134183674022_1_alg».proof.Proof.Gen.Kernel.Skeleton
import proofs.«126349_j90134183674022_1_alg».proof.Proof.Gen.Kernel.Launch
import proofs.«126349_j90134183674022_1_alg».proof.Proof.Gen.Kernel.Points
import proofs.«126349_j90134183674022_1_alg».proof.Proof.Gen.Kernel.Frame
import proofs.«126349_j90134183674022_1_alg».proof.Proof.Gen.KernelIdeal
import proofs.«126349_j90134183674022_1_alg».proof.Proof.Gen.KernelIdeal.Skeleton
import proofs.«126349_j90134183674022_1_alg».proof.Proof.Gen.KernelIdeal.Launch
import proofs.«126349_j90134183674022_1_alg».proof.Proof.Gen.KernelIdeal.Points
import proofs.«126349_j90134183674022_1_alg».proof.Proof.Gen.KernelIdeal.Frame
import proofs.«126349_j90134183674022_1_alg».proof.Proof.Gen.ReferenceIdeal
import proofs.«126349_j90134183674022_1_alg».proof.Proof.Gen.Pre_finite_inputs
import proofs.«126349_j90134183674022_1_alg».proof.Proof.KernelIdealRun
import proofs.«126349_j90134183674022_1_alg».proof.Proof.RefRun
import proofs.«126349_j90134183674022_1_alg».proof.Proof.RefRead
import proofs.«126349_j90134183674022_1_alg».proof.Proof.Chain
import proofs.«126349_j90134183674022_1_alg».proof.Proof.Finite
import proofs.«126349_j90134183674022_1_alg».proof.Proof.LogSoftmax
import proofs.«126349_j90134183674022_1_alg».proof.Proof.PreFinite
import Idealize.ShloMosaic.Adequacy
import Idealize.ShloMosaic.Init

noncomputable section

namespace Cert.Spec

open Idealize.ShloMosaic Cert.ReferenceIdeal Cert.LibFinite

/-- On real arguments the kernel's and the reference's results are one array: they differ only in the grouping of
    the last subtraction, and the array it acts on is real. -/
theorem ker_eq_ref (x0 : FVec Ideal S50000x128 .f32) (ei : (⟨S2x800000, .i32⟩ : BufTy).Contents (Elt Ideal))
    (x2 : FVec Ideal S128x128 .f32) (x3 : FVec Ideal S128 .f32) (x4 : FVec Ideal S128x2 .f32) (x5 : FVec Ideal S2 .f32)
    (h0 : ∀ i, IsReal (x0 i)) (h2 : ∀ i, IsReal (x2 i)) (h3 : ∀ i, IsReal (x3 i)) (h4 : ∀ i, IsReal (x4 i))
    (h5 : ∀ i, IsReal (x5 i)) : kerOut x0 ei x2 x3 x4 x5 = refOut x0 ei x2 x3 x4 x5 := by
  unfold kerOut refOut
  exact lsm_bridge _ _ (hidden_isReal x0 ei x2 x3 x4 h0 h2 h3 h4) (row2_isReal x5 h5)

end Cert.Spec

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at kerOut of the kernel's arguments: the kernel by the fold of its boundaries, the reference at
    refOut of its own (equal) arguments, which is kerOut where the arguments are real. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ c), (h c).2⟩)
      (Cert.KernelIdeal.GenRun.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h2, h3, h4, h5⟩ := Cert.PreFinite.isReal_of_pre _ _ _ _ _ _ (hpre c)
    rw [Cert.ReferenceIdeal.ReadP.val_main_v65_eq, Cert.Spec.ref_eq, (hagree c).1, (hagree c).2.1, (hagree c).2.2.1,
      (hagree c).2.2.2.1, (hagree c).2.2.2.2.1, (hagree c).2.2.2.2.2]
    exact (Cert.Spec.ker_eq_ref _ _ _ _ _ _ h0 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
